-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S1x1x512 : Shape := ⟨3, ![1, 1, 512]⟩
abbrev S2048x2048 : Shape := ⟨2, ![2048, 2048]⟩
abbrev S64x4096 : Shape := ⟨2, ![64, 4096]⟩
abbrev S512x64 : Shape := ⟨2, ![512, 64]⟩
abbrev S512 : Shape := ⟨1, ![512]⟩
abbrev S1536 : Shape := ⟨1, ![1536]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1x1x512 : S_.BroadcastsInDim S1x1x512 (![] : Fin 0 → Fin S1x1x512.rank)
  reducesTo_S1x1x512_S_d0_1_2 : S1x1x512.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S64x4096 : S_.BroadcastsInDim S64x4096 (![] : Fin 0 → Fin S64x4096.rank)
  reducesTo_S64x4096_S_d0_1 : S64x4096.ReducesTo [0, 1] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S1536 : S_.BroadcastsInDim S1536 (![] : Fin 0 → Fin S1536.rank)
  reducesTo_S1536_S_d0 : S1536.ReducesTo [0] S_

variable [Facts]

def fn_part3 {F : FTy → Type} [FloatOps F] (main_v48 : IVec S_ 1) (main_v49 : FVec F S1536 .f32) (main_v50 : FVec F S1536 .f32) : IVec S_ 1 :=
  let main_v51 : IVec S1536 1 := cmpf .olt main_v49 main_v50
  let main_c_19 : IVec S_ 1 := constantI S_ 1 1#1
  let main_v52 : IVec S_ 1 := (fun x v => Host.reduce IntOp.andi x v reducesTo_S1536_S_d0 h_S_) main_v51 main_c_19
  let main_v53 : IVec S_ 1 := andi main_v48 main_v52
  main_v53

def fn_part2 {F : FTy → Type} [FloatOps F] (main_arg7 : FVec F S512 .f32) (main_arg8 : FVec F S512 .f32) (main_arg9 : FVec F S1536 .f32) (main_arg10 : FVec F S1536 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1536 .f32 := Host.absf main_arg9
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S1536 .f32 := Host.absf main_arg10
  let main_cst_18 : FVec F S_ .f32 := constant S_ .f32 0x7F800000#32
  let main_v50 : FVec F S1536 .f32 := broadcastInDim S1536 ![] bcast_S_S1536 main_cst_18
  fn_part3 (F := F) main_v48 main_v49 main_v50

def fn_part1 {F : FTy → Type} [FloatOps F] (main_arg4 : FVec F S64x4096 .f32) (main_arg5 : FVec F S512x64 .f32) (main_arg6 : FVec F S512 .f32) (main_arg7 : FVec F S512 .f32) (main_arg8 : FVec F S512 .f32) (main_arg9 : FVec F S1536 .f32) (main_arg10 : FVec F S1536 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x4096x2048 .f32) (main_arg1 : FVec F S4x4096x2048 .f32) (main_arg2 : FVec F S1x1x512 .f32) (main_arg3 : FVec F S2048x2048 .f32) (main_arg4 : FVec F S64x4096 .f32) (main_arg5 : FVec F S512x64 .f32) (main_arg6 : FVec F S512 .f32) (main_arg7 : FVec F S512 .f32) (main_arg8 : FVec F S512 .f32) (main_arg9 : FVec F S1536 .f32) (main_arg10 : FVec F S1536 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S1x1x512 .f32 := Host.absf main_arg2
  let main_cst_2 : FVec F S_ .f32 := constant S_ .f32 0x7F800000#32
  let main_v10 : FVec F S1x1x512 .f32 := broadcastInDim S1x1x512 ![] bcast_S_S1x1x512 main_cst_2
  let main_v11 : IVec S1x1x512 1 := cmpf .olt main_v9 main_v10
  let main_c_3 : IVec S_ 1 := constantI S_ 1 1#1
  let main_v12 : IVec S_ 1 := (fun x v => Host.reduce IntOp.andi x v reducesTo_S1x1x512_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S4x4096x2048 : Shape := ⟨3, ![4, 4096, 2048]⟩
abbrev S1x1x512 : Shape := ⟨3, ![1, 1, 512]⟩
abbrev S2048x2048 : Shape := ⟨2, ![2048, 2048]⟩
abbrev S64x4096 : Shape := ⟨2, ![64, 4096]⟩
abbrev S512x64 : Shape := ⟨2, ![512, 64]⟩
abbrev S512 : Shape := ⟨1, ![512]⟩
abbrev S1536 : Shape := ⟨1, ![1536]⟩
abbrev S16384x2048 : Shape := ⟨2, ![16384, 2048]⟩
abbrev S64x512 : Shape := ⟨2, ![64, 512]⟩
abbrev S64x1536 : Shape := ⟨2, ![64, 1536]⟩
abbrev S1536x64 : Shape := ⟨2, ![1536, 64]⟩
abbrev S64x2048 : Shape := ⟨2, ![64, 2048]⟩
abbrev S2048x64 : Shape := ⟨2, ![2048, 64]⟩
abbrev S1x512 : Shape := ⟨2, ![1, 512]⟩
abbrev S1x1536 : Shape := ⟨2, ![1, 1536]⟩
abbrev S256x2048 : Shape := ⟨2, ![256, 2048]⟩
abbrev S256x512 : Shape := ⟨2, ![256, 512]⟩
abbrev S256x1536 : Shape := ⟨2, ![256, 1536]⟩
abbrev S256 : Shape := ⟨1, ![256]⟩
abbrev S256x1 : Shape := ⟨2, ![256, 1]⟩
abbrev S256x64 : Shape := ⟨2, ![256, 64]⟩

abbrev nBuf : Space → Nat
  | .hbm => 34
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1x1x512, .f32⟩
  | .hbm, ⟨3, _⟩ => ⟨S2048x2048, .f32⟩
  | .hbm, ⟨4, _⟩ => ⟨S64x4096, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1536, .f32⟩
  | .hbm, ⟨10, _⟩ => ⟨S1536, .f32⟩
  | .hbm, ⟨11, _⟩ => ⟨S16384x2048, .f32⟩
  | .hbm, ⟨12, _⟩ => ⟨S16384x2048, .f32⟩
  | .hbm, ⟨13, _⟩ => ⟨S2048x2048, .f32⟩
  | .hbm, ⟨14, _⟩ => ⟨S2048x2048, .bf16⟩
  | .hbm, ⟨15, _⟩ => ⟨S64x512, .f32⟩
  | .hbm, ⟨16, _⟩ => ⟨S512x64, .f32⟩
  | .hbm, ⟨17, _⟩ => ⟨S512x64, .bf16⟩
  | .hbm, ⟨18, _⟩ => ⟨S64x1536, .f32⟩
  | .hbm, ⟨19, _⟩ => ⟨S1536x64, .f32⟩
  | .hbm, ⟨20, _⟩ => ⟨S1536x64, .bf16⟩
  | .hbm, ⟨21, _⟩ => ⟨S64x2048, .f32⟩
  | .hbm, ⟨22, _⟩ => ⟨S2048x64, .f32⟩
  | .hbm, ⟨23, _⟩ => ⟨S2048x64, .bf16⟩
  | .hbm, ⟨24, _⟩ => ⟨S64x512, .f32⟩
  | .hbm, ⟨25, _⟩ => ⟨S64x512, .bf16⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x1536, .f32⟩
  | .hbm, ⟨31, _⟩ => ⟨S1x1536, .f32⟩
  | .hbm, ⟨32, _⟩ => ⟨S16384x2048, .f32⟩
  | .hbm, ⟨33, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S512x64, .bf16⟩
  | .local _ .vmem, ⟨6, _⟩ => ⟨S1536x64, .bf16⟩
  | .local _ .vmem, ⟨7, _⟩ => ⟨S2048x64, .bf16⟩
  | .local _ .vmem, ⟨8, _⟩ => ⟨S64x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x1536, .f32⟩
  | .local _ .vmem, ⟨14, _⟩ => ⟨S1x1536, .f32⟩
  | .local _ .vmem, ⟨15, _⟩ => ⟨S256x2048, .f32⟩
  | .local _ .vmem, ⟨16, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S4x4096x2048_S16384x2048 : S4x4096x2048.ShapeCasts S16384x2048
  transposes_S2048x2048_S2048x2048_1_0 : S2048x2048.Transposes [1, 0] S2048x2048
  bitsLt_bf16_f32 : FTy.bits .bf16 < FTy.bits .f32
  slices_S64x4096_S64x512_0_0 : S64x4096.Slices ![0, 0] S64x512
  transposes_S64x512_S512x64_1_0 : S64x512.Transposes [1, 0] S512x64
  slices_S64x4096_S64x1536_0_512 : S64x4096.Slices ![0, 512] S64x1536
  transposes_S64x1536_S1536x64_1_0 : S64x1536.Transposes [1, 0] S1536x64
  slices_S64x4096_S64x2048_0_2048 : S64x4096.Slices ![0, 2048] S64x2048
  transposes_S64x2048_S2048x64_1_0 : S64x2048.Transposes [1, 0] S2048x64
  transposes_S512x64_S64x512_1_0 : S512x64.Transposes [1, 0] S64x512
  shapeCasts_S512_S1x512 : S512.ShapeCasts S1x512
  shapeCasts_S1x1x512_S1x512 : S1x1x512.ShapeCasts S1x512
  shapeCasts_S1536_S1x1536 : S1536.ShapeCasts S1x1536
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S256x2048_o0_0_S256x512 : S256x2048.Slices ![0, 0] S256x512
  slices_S256x2048_o0_512_S256x1536 : S256x2048.Slices ![0, 512] S256x1536
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S256x512_S256 : S256x512.Reduces [1] S256
  shapeCasts_S256_S256x1 : S256.ShapeCasts S256x1
  broadcasts_S256x1_S256x512 : S256x1.Broadcasts S256x512
  broadcasts_S1x512_S256x512 : S1x512.Broadcasts S256x512
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  reduces_S256x1536_S256 : S256x1536.Reduces [1] S256
  broadcasts_S256x1_S256x1536 : S256x1.Broadcasts S256x1536
  broadcasts_S1x1536_S256x1536 : S1x1536.Broadcasts S256x1536
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1536x64_S1536x64_0_0 : ∀ a, (![0, 0] : Fin 2 → Nat) a + S1536x64.size a ≤ S1536x64.size a
  h_S1536x64 : 0 < S1536x64.numel
  shapeCasts_S1536x64_S1536x64 : S1536x64.ShapeCasts S1536x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S256x2048_S256x512_0_0 : ∀ a, (![0, 0] : Fin 2 → Nat) a + S256x512.size a ≤ S256x2048.size a
  h_S256x512 : 0 < S256x512.numel
  inb_S256x2048_S256x1536_0_512 : ∀ a, (![0, 512] : Fin 2 → Nat) a + S256x1536.size a ≤ S256x2048.size a
  h_S256x1536 : 0 < S256x1536.numel
  shapeCasts_S16384x2048_S4x4096x2048 : S16384x2048.ShapeCasts S4x4096x2048
  dot_S256x2048_S2048x2048_S256x2048_1_0_0_1_n_n_wf : DotDims.WF S256x2048 S2048x2048 S256x2048 [1] [0] [0] [1] [] []
  dot_S256x512_S512x64_S256x64_1_0_0_1_n_n_wf : DotDims.WF S256x512 S512x64 S256x64 [1] [0] [0] [1] [] []
  dot_S256x1536_S1536x64_S256x64_1_0_0_1_n_n_wf : DotDims.WF S256x1536 S1536x64 S256x64 [1] [0] [0] [1] [] []
  dot_S256x2048_S2048x64_S256x64_1_0_0_1_n_n_wf : DotDims.WF S256x2048 S2048x64 S256x64 [1] [0] [0] [1] [] []
  dot_S256x64_S64x512_S256x512_1_0_0_1_n_n_wf : DotDims.WF S256x64 S64x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .bf16 = 32 ∨ (Rect.block (s := S512x64) S512x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x64.size a ≤ S1536x64.size a
  hwx0_4 : ∀ i : grid0.Coords, EltTy.bits .bf16 = 32 ∨ (Rect.block (s := S1536x64) S1536x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S2048x64.size a
  hwx0_5 : ∀ i : grid0.Coords, EltTy.bits .bf16 = 32 ∨ (Rect.block (s := S2048x64) S2048x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x512.size a
  hwx0_6 : ∀ i : grid0.Coords, EltTy.bits .bf16 = 32 ∨ (Rect.block (s := S64x512) S64x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1536.size a ≤ S1x1536.size a
  hwx0_11 : ∀ i : grid0.Coords, EltTy.bits .f32 = 32 ∨ (Rect.block (s := S1x1536) S1x1536.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1536.size a ≤ S1x1536.size a
  hwx0_12 : ∀ i : grid0.Coords, EltTy.bits .f32 = 32 ∨ (Rect.block (s := S1x1536) S1x1536.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S16384x2048.size a
  hwx0_13 : ∀ i : grid0.Coords, EltTy.bits .f32 = 32 ∨ (Rect.block (s := S16384x2048) S256x2048.size (cc0_transform_13 i) (hinb0_13 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x1536_S1536x64_S256x64_1_0_0_1_n_n : DotDims S256x1536 S1536x64 S256x64 where
  lhsContracting := [1]
  rhsContracting := [0]
  lhsNonContracting := [0]
  rhsNonContracting := [1]
  lhsBatch := []
  rhsBatch := []
  wf := dot_S256x1536_S1536x64_S256x64_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1536x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S64x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x1536.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x1536.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S256x2048.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S1x1x512 : Shape := ⟨3, ![1, 1, 512]⟩
abbrev S2048x2048 : Shape := ⟨2, ![2048, 2048]⟩
abbrev S64x4096 : Shape := ⟨2, ![64, 4096]⟩
abbrev S512x64 : Shape := ⟨2, ![512, 64]⟩
abbrev S512 : Shape := ⟨1, ![512]⟩
abbrev S1536 : Shape := ⟨1, ![1536]⟩
abbrev S4x4096x512 : Shape := ⟨3, ![4, 4096, 512]⟩
abbrev S4x4096x1536 : Shape := ⟨3, ![4, 4096, 1536]⟩
abbrev S_ : Shape := ⟨0, ![]⟩
abbrev S4x4096 : Shape := ⟨2, ![4, 4096]⟩
abbrev S4x4096x1 : Shape := ⟨3, ![4, 4096, 1]⟩
abbrev S1x1x1536 : Shape := ⟨3, ![1, 1, 1536]⟩
abbrev S4x4096x4096 : Shape := ⟨3, ![4, 4096, 4096]⟩
abbrev S4x4096x64 : Shape := ⟨3, ![4, 4096, 64]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1x1x512, .f32⟩
  | .hbm, ⟨3, _⟩ => ⟨S2048x2048, .f32⟩
  | .hbm, ⟨4, _⟩ => ⟨S64x4096, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1536, .f32⟩
  | .hbm, ⟨10, _⟩ => ⟨S1536, .f32⟩
  | .hbm, ⟨11, _⟩ => ⟨S4x4096x512, .f32⟩
  | .hbm, ⟨12, _⟩ => ⟨S4x4096x1536, .f32⟩
  | .hbm, ⟨13, _⟩ => ⟨S4x4096x2048, .f32⟩
  | .hbm, ⟨14, _⟩ => ⟨S4x4096x512, .f32⟩
  | .hbm, ⟨15, _⟩ => ⟨S4x4096x1536, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x512, .f32⟩
  | .hbm, ⟨32, _⟩ => ⟨S4x4096x512, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x512, .f32⟩
  | .hbm, ⟨38, _⟩ => ⟨S4x4096x512, .f32⟩
  | .hbm, ⟨39, _⟩ => ⟨S1x1x512, .f32⟩
  | .hbm, ⟨40, _⟩ => ⟨S4x4096x512, .f32⟩
  | .hbm, ⟨41, _⟩ => ⟨S4x4096x512, .f32⟩
  | .hbm, ⟨42, _⟩ => ⟨S1x1x512, .f32⟩
  | .hbm, ⟨43, _⟩ => ⟨S4x4096x512, .f32⟩
  | .hbm, ⟨44, _⟩ => ⟨S4x4096x512, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1536, .f32⟩
  | .hbm, ⟨52, _⟩ => ⟨S4x4096x1536, .f32⟩
  | .hbm, ⟨53, _⟩ => ⟨S4x4096x1536, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1536, .f32⟩
  | .hbm, ⟨61, _⟩ => ⟨S4x4096x1536, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x1536, .f32⟩
  | .hbm, ⟨67, _⟩ => ⟨S4x4096x1536, .f32⟩
  | .hbm, ⟨68, _⟩ => ⟨S1x1x1536, .f32⟩
  | .hbm, ⟨69, _⟩ => ⟨S4x4096x1536, .f32⟩
  | .hbm, ⟨70, _⟩ => ⟨S4x4096x1536, .f32⟩
  | .hbm, ⟨71, _⟩ => ⟨S1x1x1536, .f32⟩
  | .hbm, ⟨72, _⟩ => ⟨S4x4096x1536, .f32⟩
  | .hbm, ⟨73, _⟩ => ⟨S4x4096x1536, .f32⟩
  | .hbm, ⟨74, _⟩ => ⟨S4x4096x2048, .f32⟩
  | .hbm, ⟨75, _⟩ => ⟨S4x4096x4096, .f32⟩
  | .hbm, ⟨76, _⟩ => ⟨S4x4096x64, .f32⟩
  | .hbm, ⟨77, _⟩ => ⟨S4x4096x512, .f32⟩
  | .hbm, ⟨78, _⟩ => ⟨S1x1x512, .f32⟩
  | .hbm, ⟨79, _⟩ => ⟨S4x4096x512, .f32⟩
  | .hbm, ⟨80, _⟩ => ⟨S4x4096x512, .f32⟩
  | .hbm, ⟨81, _⟩ => ⟨S_, .f32⟩
  | .hbm, ⟨82, _⟩ => ⟨S4x4096x512, .f32⟩
  | .hbm, ⟨83, _⟩ => ⟨S4x4096x512, .f32⟩
  | .hbm, ⟨84, _⟩ => ⟨S4x4096x512, .f32⟩
  | .hbm, ⟨85, _⟩ => ⟨S4x4096x512, .f32⟩
  | .hbm, ⟨86, _⟩ => ⟨S4x4096x512, .i1⟩
  | .hbm, ⟨87, _⟩ => ⟨S4x4096x512, .f32⟩
  | .hbm, ⟨88, _⟩ => ⟨S4x4096x512, .f32⟩
  | .hbm, ⟨89, _⟩ => ⟨S4x4096x512, .f32⟩
  | .hbm, ⟨90, _⟩ => ⟨S4x4096x512, .f32⟩
  | .hbm, ⟨91, _⟩ => ⟨S4x4096x512, .f32⟩
  | .hbm, ⟨92, _⟩ => ⟨S4x4096x512, .f32⟩
  | .hbm, ⟨93, _⟩ => ⟨S4x4096x512, .f32⟩
  | .hbm, ⟨94, _⟩ => ⟨S4x4096x512, .f32⟩
  | .hbm, ⟨95, _⟩ => ⟨S_, .f32⟩
  | .hbm, ⟨96, _⟩ => ⟨S1x1x512, .f32⟩
  | .hbm, ⟨97, _⟩ => ⟨S1x1x512, .f32⟩
  | .hbm, ⟨98, _⟩ => ⟨S1x1x512, .f32⟩
  | .hbm, ⟨99, _⟩ => ⟨S1x1x512, .f32⟩
  | .hbm, ⟨100, _⟩ => ⟨S1x1x512, .i1⟩
  | .hbm, ⟨101, _⟩ => ⟨S1x1x512, .f32⟩
  | .hbm, ⟨102, _⟩ => ⟨S1x1x512, .f32⟩
  | .hbm, ⟨103, _⟩ => ⟨S1x1x512, .f32⟩
  | .hbm, ⟨104, _⟩ => ⟨S1x1x512, .f32⟩
  | .hbm, ⟨105, _⟩ => ⟨S1x1x512, .f32⟩
  | .hbm, ⟨106, _⟩ => ⟨S1x1x512, .f32⟩
  | .hbm, ⟨107, _⟩ => ⟨S1x1x512, .f32⟩
  | .hbm, ⟨108, _⟩ => ⟨S1x1x512, .f32⟩
  | .hbm, ⟨109, _⟩ => ⟨S1x1x512, .f32⟩
  | .hbm, ⟨110, _⟩ => ⟨S4x4096x512, .f32⟩
  | .hbm, ⟨111, _⟩ => ⟨S4x4096x512, .f32⟩
  | .hbm, ⟨112, _⟩ => ⟨S4x4096x512, .f32⟩
  | .hbm, ⟨113, _⟩ => ⟨S_, .f32⟩
  | .hbm, ⟨114, _⟩ => ⟨S4x4096x512, .f32⟩
  | .hbm, ⟨115, _⟩ => ⟨S4x4096x512, .f32⟩
  | .hbm, ⟨116, _⟩ => ⟨S4x4096x512, .f32⟩
  | .hbm, ⟨117, _⟩ => ⟨S4x4096x512, .f32⟩
  | .hbm, ⟨118, _⟩ => ⟨S4x4096x512, .f32⟩
  | .hbm, ⟨119, _⟩ => ⟨S4x4096x512, .f32⟩
  | .hbm, ⟨120, _⟩ => ⟨S4x4096x512, .f32⟩
  | .hbm, ⟨121, _⟩ => ⟨S4x4096x1536, .f32⟩
  | .hbm, ⟨122, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_v60 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_9 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩

abbrev nD : Nat := 1
abbrev τ : Topo := Topo.v7x

variable {F : FTy → Type} [FloatOps F]

class Facts₀ : Prop where
  slices_S4x4096x2048_S4x4096x512_0_0_0 : S4x4096x2048.Slices ![0, 0, 0] S4x4096x512
  slices_S4x4096x2048_S4x4096x1536_0_0_512 : S4x4096x2048.Slices ![0, 0, 512] S4x4096x1536
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  reducesTo_S4x4096x1536_S4x4096_d2 : S4x4096x1536.ReducesTo [2] S4x4096
  bcast_S4x4096x1_S4x4096x1536_0_1_2 : S4x4096x1.BroadcastsInDim S4x4096x1536 (![0, 1, 2] : Fin 3 → Fin S4x4096x1536.rank)
  bcast_S1536_S1x1x1536_2 : S1536.BroadcastsInDim S1x1x1536 (![2] : Fin 1 → Fin S1x1x1536.rank)
  bcast_S1x1x1536_S4x4096x1536_0_1_2 : S1x1x1536.BroadcastsInDim S4x4096x1536 (![0, 1, 2] : Fin 3 → Fin S4x4096x1536.rank)
  concatenates_S4x4096x512_S4x4096x1536_S4x4096x2048_d2 : Shape.Concatenates [S4x4096x512, S4x4096x1536] S4x4096x2048 2
  concatenates_S4x4096x2048_S4x4096x2048_S4x4096x4096_d2 : Shape.Concatenates [S4x4096x2048, S4x4096x2048] S4x4096x4096 2
  bcast_S_S4x4096x512 : S_.BroadcastsInDim S4x4096x512 (![] : Fin 0 → Fin S4x4096x512.rank)
  bcast_S_S1x1x512 : S_.BroadcastsInDim S1x1x512 (![] : Fin 0 → Fin S1x1x512.rank)
  dot_S4x4096x2048_S2048x2048_S4x4096x2048_2_1_01_0_n_n_wf : DotDims.WF S4x4096x2048 S2048x2048 S4x4096x2048 [2] [1] [0, 1] [0] [] []
  dot_S4x4096x4096_S64x4096_S4x4096x64_2_1_01_0_n_n_wf : DotDims.WF S4x4096x4096 S64x4096 S4x4096x64 [2] [1] [0, 1] [0] [] []
  dot_S4x4096x64_S512x64_S4x4096x512_2_1_01_0_n_n_wf : DotDims.WF S4x4096x64 S512x64 S4x4096x512 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf
def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf
def dot_S4x4096x64_S512x64_S4x4096x512_2_1_01_0_n_n : DotDims S4x4096x64 S512x64 S4x4096x512 where
  lhsContracting := [2]
  rhsContracting := [1]
  lhsNonContracting := [0, 1]
  rhsNonContracting := [0]
  lhsBatch := []
  rhsBatch := []
  wf := dot_S4x4096x64_S512x64_S4x4096x512_2_1_01_0_n_n_wf

class Facts : Prop extends Facts₀ where

variable [Facts]
-- ==== Proof.RowSpec.lean ====
/-
  What both programs compute, row by row, on the extended reals.

  A row of the result depends on one row `hs` of the hidden states and the same row `y` of the second input, and on
  the weights. With `wy h = ∑ k, y k · W h k`:

  * columns 512 … 2047 (the residual part) hold `hs j + wy j`;
  * columns 0 … 511 (the selective part) hold `ā · hs d + b̄ · wy d`, where `ā = exp (δ · a)`, `b̄ = (ā - 1) / a`,
    `a = -softplus (A d)`, `δ = softplus (∑ q, low q · du d q + dub d)`, and `low q` is the row
    `[layernorm (hs, first 512) | layernorm (hs, last 1536) | y]` (4096 long) contracted with row `q` of `dd`.

  The contraction over the 4096 columns is written as the sum of its three stretches (512, 1536 and 2048 columns):
  addition of extended reals is commutative and associative, so the one sum over 4096 columns is that
  (`sum_three_stretches`). The layer norm divides a row's sum and the sum of its squared deviations by the row's
  length, adds ε and multiplies by the reciprocal square root.
-/
import Idealize.ShloMosaic.PureOps.Ideal
import Idealize.ShloMosaic.PureOps.Ideal.Laws
import Idealize.ShloMosaic.Lib.ValueIdx

noncomputable section

namespace Cert.RowSpec

open Idealize.ShloMosaic Idealize.ShloMosaic.ValueIdx

/-! ## Where a column of a stretch sits in the longer row -/

/-- Column `d` of the selective part, as a column of the 2048-long row. -/
def inSel (d : Fin 512) : Fin 2048 := ⟨d.val, by have := d.isLt; omega⟩
/-- Column `e` of the residual part, as a column of the 2048-long row: 512 further on. -/
def inRes (e : Fin 1536) : Fin 2048 := ⟨512 + e.val, by have := e.isLt; omega⟩
/-- Columns of the 4096-long concatenated row: the first 512, -/
def colSel (c : Fin 512) : Fin 4096 := ⟨c.val, by have := c.isLt; omega⟩
/-- the next 1536, -/
def colRes (c : Fin 1536) : Fin 4096 := ⟨512 + c.val, by have := c.isLt; omega⟩
/-- and the last 2048. -/
def colY (c : Fin 2048) : Fin 4096 := ⟨2048 + c.val, by have := c.isLt; omega⟩

/-! ## The scalar functions -/

/-- `log (1 + exp (-|x|)) + max x 0`: jax's `softplus`, as both programs spell it. -/
def softplus (x : EReal) : EReal := max x 0 + Ideal.log1p (Ideal.exp (-(max x (-x))))

/-- A row's sum divided by the row's length `N` (given as an extended real). -/
def mean {n : ℕ} (N : EReal) (x : Fin n → EReal) : EReal := Ideal.div (∑ k, x k) N

/-- Layer norm of a row at column `j`: `(x j - μ) · rsqrt (σ² + ε) · g j + b j`, `ε` the f32 nearest `1e-5`. -/
def lnorm {n : ℕ} (N : EReal) (x g b : Fin n → EReal) (j : Fin n) : EReal :=
  (x j - mean N x) * Ideal.rsqrt (mean N (fun k => (x k - mean N x) * (x k - mean N x)) + Ideal.ofBits .f32 0x3727C5AC#32)
    * g j + b j

/-- The gate: from the pre-activation `pre`, the decay parameter `a`, the hidden entry and the projected entry. -/
def gate (pre a hsv wyv : EReal) : EReal :=
  Ideal.exp (softplus pre * -(softplus a)) * hsv
    + Ideal.div (Ideal.exp (softplus pre * -(softplus a)) - Ideal.ofBits .f32 0x3F800000#32) (-(softplus a)) * wyv

/-! ## A row of the result -/

section Row

variable (hs y : Fin 2048 → EReal) (A : Fin 512 → EReal) (W : Fin 2048 → Fin 2048 → EReal)
  (ddS : Fin 64 → Fin 512 → EReal) (ddR : Fin 64 → Fin 1536 → EReal) (ddY : Fin 64 → Fin 2048 → EReal)
  (du : Fin 512 → Fin 64 → EReal) (dub selg selb : Fin 512 → EReal) (resg resb : Fin 1536 → EReal)

/-- `y · Wᵀ` at output column `h`. -/
def wy (h : Fin 2048) : EReal := ∑ k : Fin 2048, y k * W h k

/-- The low-rank projection at rank index `q`: the three stretches of the concatenated row against `dd`'s row `q`. -/
def low (q : Fin 64) : EReal :=
  (∑ c : Fin 512, lnorm (Ideal.ofBits .f32 0x44000000#32) (fun d => hs (inSel d)) selg selb c * ddS q c
    + ∑ c : Fin 1536, lnorm (Ideal.ofBits .f32 0x44C00000#32) (fun e => hs (inRes e)) resg resb c * ddR q c)
    + ∑ c : Fin 2048, y c * ddY q c

/-- The selective part at column `d`. -/
def selOut (d : Fin 512) : EReal :=
  gate ((∑ q : Fin 64, low hs y ddS ddR ddY selg selb resg resb q * du d q) + dub d) (A d) (hs (inSel d)) (wy y W (inSel d))

/-- The residual part at column `e`. -/
def resOut (e : Fin 1536) : EReal := hs (inRes e) + wy y W (inRes e)

/-- The whole row at column `j`. -/
def rowOut (j : Fin 2048) : EReal :=
  if h : j.val < 512 then selOut hs y A W ddS ddR ddY du dub selg selb resg resb ⟨j.val, h⟩
  else resOut hs y W ⟨j.val - 512, by have := j.isLt; omega⟩

theorem rowOut_inSel (d : Fin 512) :
    rowOut hs y A W ddS ddR ddY du dub selg selb resg resb (inSel d)
      = selOut hs y A W ddS ddR ddY du dub selg selb resg resb d := by
  unfold rowOut
  rw [dif_pos (show (inSel d).val < 512 from d.isLt)]
  rfl

theorem rowOut_inRes (e : Fin 1536) :
    rowOut hs y A W ddS ddR ddY du dub selg selb resg resb (inRes e) = resOut hs y W e := by
  unfold rowOut
  rw [dif_neg (show ¬(inRes e).val < 512 by show ¬(512 + e.val < 512); omega)]
  exact congrArg (resOut hs y W) (Fin.ext (show 512 + e.val - 512 = e.val by omega))

end Row

/-! ## One sum over 4096 columns is the sum of its three stretches -/

theorem sum_three_stretches (f : Fin 4096 → EReal) :
    ∑ c : Fin 4096, f c
      = (∑ c : Fin 512, f (colSel c) + ∑ c : Fin 1536, f (colRes c)) + ∑ c : Fin 2048, f (colY c) := by
  have h1 := Fin.sum_univ_add (a := 2048) (b := 2048) f
  have h2 := Fin.sum_univ_add (a := 512) (b := 1536) (fun c => f (Fin.castAdd 2048 c))
  refine h1.trans ?_
  refine congrArg₂ (· + ·) (h2.trans ?_) ?_
  · exact congrArg₂ (· + ·) (Finset.sum_congr rfl fun c _ => congrArg f (Fin.ext rfl))
      (Finset.sum_congr rfl fun c _ => congrArg f (Fin.ext rfl))
  · exact Finset.sum_congr rfl fun c _ => congrArg f (Fin.ext rfl)

/-! ## The result array -/

/-- The result as one function of the eleven argument arrays: entry `(b, s, j)` is column `j` of the row built from
    row `(b, s)` of the two inputs. `dd`'s 4096 columns are read in their three stretches. -/
def G (x0 x1 : (⟨3, ![4, 4096, 2048]⟩ : Shape).Idx → EReal) (x2 : (⟨3, ![1, 1, 512]⟩ : Shape).Idx → EReal)
    (x3 : (⟨2, ![2048, 2048]⟩ : Shape).Idx → EReal) (x4 : (⟨2, ![64, 4096]⟩ : Shape).Idx → EReal)
    (x5 : (⟨2, ![512, 64]⟩ : Shape).Idx → EReal) (x6 x7 x8 : (⟨1, ![512]⟩ : Shape).Idx → EReal)
    (x9 x10 : (⟨1, ![1536]⟩ : Shape).Idx → EReal) : (⟨3, ![4, 4096, 2048]⟩ : Shape).Idx → EReal := fun i =>
  rowOut (fun k => x0 (ix3 (i 0) (i 1) k)) (fun k => x1 (ix3 (i 0) (i 1) k)) (fun d => x2 (ix3 0 0 d))
    (fun h k => x3 (ix2 h k)) (fun q c => x4 (ix2 q (colSel c))) (fun q c => x4 (ix2 q (colRes c)))
    (fun q c => x4 (ix2 q (colY c))) (fun d q => x5 (ix2 d q)) (fun d => x6 (ix1 d)) (fun d => x7 (ix1 d))
    (fun d => x8 (ix1 d)) (fun e => x9 (ix1 e)) (fun e => x10 (ix1 e)) (i 2)

end Cert.RowSpec

end
-- ==== Proof.PaySlices.lean ====
/-
  The body's slices and its first matrix product, read at an entry.
-/
import proofs.«153052_j26560077758945_1_alg».proof.Proof.Gen.KernelIdeal.Skeleton
import proofs.«153052_j26560077758945_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PaySlices

open Idealize.ShloMosaic Idealize.ShloMosaic.ValueIdx Cert.KernelIdeal Cert.KernelIdeal.Gen Cert.RowSpec

/-- The first 512 columns of the hidden block. -/
theorem pay2_apply (x0 : Vec Ideal S256x2048 .f32) (r : Fin 256) (d : Fin 512) :
    k0_pay2 (F := Ideal) x0 (ix2 r d) = x0 (ix2 r (inSel d)) := by
  unfold k0_pay2 k0_pay1
  rw [shapeCast_self]
  exact slice2_axis1_apply 0 x0 slices_S256x2048_o0_0_S256x512 r d (inSel d) (by show d.val = 0 + d.val; omega)

/-- The last 1536 columns of the hidden block. -/
theorem pay3_apply (x0 : Vec Ideal S256x2048 .f32) (r : Fin 256) (e : Fin 1536) :
    k0_pay3 (F := Ideal) x0 (ix2 r e) = x0 (ix2 r (inRes e)) := by
  unfold k0_pay3 k0_pay1
  rw [shapeCast_self]
  exact slice2_axis1_apply 512 x0 slices_S256x2048_o0_512_S256x1536 r e (inRes e) rfl

/-- The second input's block in the narrower format: the same numbers. -/
theorem pay4_apply (x1 : Vec Ideal S256x2048 .f32) (i : S256x2048.Idx) :
    k0_pay4 (F := Ideal) x1 i = x1 i := by
  unfold k0_pay4
  rw [shapeCast_self]
  rfl

/-- The operand indices of the first product: the left operand is read at (row, k), the right at (k, column). -/
theorem lhs_pay5_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_pay5_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_pay5_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_pay5_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The block of `y · Wᵀ`: entry `(r, h)` is the sum over `k` of `y (r, k) · Wᵀ (k, h)`. -/
theorem pay5_apply (x1 : Vec Ideal S256x2048 .f32) (x2 : Vec Ideal S2048x2048 .bf16) (r : Fin 256) (h : Fin 2048) :
    k0_pay5 (F := Ideal) x1 x2 (ix2 r h) = ∑ k : Fin 2048, x1 (ix2 r k) * x2 (ix2 k h) := by
  unfold k0_pay5
  rw [shapeCast_self]
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 r h) ((contrEquiv1 dot_S256x2048_S2048x2048_S256x2048_1_0_0_1_n_n 2048 rfl rfl).symm k) = ix2 r k := funext fun a => Fin.ext (by
    match a with
    | ⟨0, _⟩ => exact lhs_pay5_0 _ _
    | ⟨1, _⟩ => exact (lhs_pay5_1 _ _).trans hk)
  have er : dot_S256x2048_S2048x2048_S256x2048_1_0_0_1_n_n.rhsIdx (ix2 r h) ((contrEquiv1 dot_S256x2048_S2048x2048_S256x2048_1_0_0_1_n_n 2048 rfl rfl).symm k) = ix2 k h := funext fun a => Fin.ext (by
    match a with
    | ⟨0, _⟩ => exact (rhs_pay5_0 _ _).trans hk
    | ⟨1, _⟩ => exact rhs_pay5_1 _ _)
  rw [el, er, pay4_apply]

theorem pay6_apply (x1 : Vec Ideal S256x2048 .f32) (x2 : Vec Ideal S2048x2048 .bf16) (r : Fin 256) (d : Fin 512) :
    k0_pay6 (F := Ideal) x1 x2 (ix2 r d) = ∑ k : Fin 2048, x1 (ix2 r k) * x2 (ix2 k (inSel d)) := by
  unfold k0_pay6
  rw [slice2_axis1_apply 0 (k0_pay5 (F := Ideal) x1 x2) slices_S256x2048_o0_0_S256x512 r d (inSel d) (by show d.val = 0 + d.val; omega)]
  exact pay5_apply x1 x2 r (inSel d)

theorem pay7_apply (x1 : Vec Ideal S256x2048 .f32) (x2 : Vec Ideal S2048x2048 .bf16) (r : Fin 256) (e : Fin 1536) :
    k0_pay7 (F := Ideal) x1 x2 (ix2 r e) = ∑ k : Fin 2048, x1 (ix2 r k) * x2 (ix2 k (inRes e)) := by
  unfold k0_pay7
  rw [slice2_axis1_apply 512 (k0_pay5 (F := Ideal) x1 x2) slices_S256x2048_o0_512_S256x1536 r e (inRes e) rfl]
  exact pay5_apply x1 x2 r (inRes e)

theorem pay9_apply (x11 : Vec Ideal S1x1536 .f32) (i : S1x1536.Idx) :
    k0_pay9 (F := Ideal) x11 i = x11 i := by
  unfold k0_pay9
  rw [shapeCast_self]

theorem pay12_apply (v5 v11 : FVec Ideal S256x1536 .f32) (i : S256x1536.Idx) :
    k0_pay12 (F := Ideal) v5 v11 i = v5 i + v11 i := rfl

end Cert.KernelIdeal.PaySlices

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.PayNorm.lean ====
/-
  The body's layer norm of a block of 256 rows, read at an entry: entry (r, j) is the layer norm of row r at column j.
-/
import proofs.«153052_j26560077758945_1_alg».proof.Proof.Gen.KernelIdeal.Skeleton
import proofs.«153052_j26560077758945_1_alg».proof.Proof.RowSpec
import proofs.«153052_j26560077758945_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayNorm

open Idealize.ShloMosaic Idealize.ShloMosaic.ValueIdx Cert.KernelIdeal Cert.KernelIdeal.Gen Cert.RowSpec

variable {F : FTy → Type} [FloatOps F]

/-- The body's layer-norm chain on a block of 256 rows and `n` columns, `g` and `b` one row each: the row sums kept
    as a column, divided by the row length (the float whose bits are `Nbits`), subtracted; the squared deviations summed
    and divided likewise; ε added, the reciprocal square root taken and broadcast back; then gain and bias. -/
def lnChain {n : ℕ} (Nbits : BitVec 32)
    (hred : (⟨2, ![256, n]⟩ : Shape).Reduces [1] ⟨1, ![256]⟩)
    (hsc : (⟨1, ![256]⟩ : Shape).ShapeCasts ⟨2, ![256, 1]⟩)
    (hbc : (⟨2, ![256, 1]⟩ : Shape).Broadcasts ⟨2, ![256, n]⟩)
    (hbr : (⟨2, ![1, n]⟩ : Shape).Broadcasts ⟨2, ![256, n]⟩)
    (v : FVec F ⟨2, ![256, n]⟩ .f32) (g b : FVec F ⟨2, ![1, n]⟩ .f32) : FVec F ⟨2, ![256, n]⟩ .f32 :=
  let mu : FVec F ⟨2, ![256, 1]⟩ .f32 :=
    divf (shapeCast ⟨2, ![256, 1]⟩ (multiReduction .add [1] ⟨1, ![256]⟩ v 0x00000000#32 hred (.inl rfl) rfl) hsc)
      (broadcast ⟨2, ![256, 1]⟩ (Scalar.ofBits .f32 Nbits))
  let dev : FVec F ⟨2, ![256, n]⟩ .f32 := subf v (broadcastTo ⟨2, ![256, n]⟩ mu hbc)
  let var : FVec F ⟨2, ![256, 1]⟩ .f32 :=
    divf (shapeCast ⟨2, ![256, 1]⟩ (multiReduction .add [1] ⟨1, ![256]⟩ (mulf dev dev) 0x00000000#32 hred (.inl rfl) rfl) hsc)
      (broadcast ⟨2, ![256, 1]⟩ (Scalar.ofBits .f32 Nbits))
  addf (mulf (mulf dev (broadcastTo ⟨2, ![256, n]⟩ (rsqrt (addf var (broadcast ⟨2, ![256, 1]⟩ (Scalar.ofBits .f32 0x3727C5AC#32)))) hbc))
    (broadcastTo ⟨2, ![256, n]⟩ g hbr)) (broadcastTo ⟨2, ![256, n]⟩ b hbr)

/-- The inserted index: lane `r` with coordinate `k` put back on axis 1 is the entry `(r, k)`. -/
theorem lift_ix1 {n : ℕ} (hred : (⟨2, ![256, n]⟩ : Shape).Reduces [1] ⟨1, ![256]⟩) (r : Fin 256) (k : Fin n) :
    hred.lift (ix1 r) k = ix2 r k :=
  funext fun a => Fin.ext (by match a with | ⟨0, _⟩ => rfl | ⟨1, _⟩ => rfl)

/-- A block's row sums kept as a column, read at row `r`: the sum of row `r`. -/
theorem rowSum_apply {n : ℕ}
    (hred : (⟨2, ![256, n]⟩ : Shape).Reduces [1] ⟨1, ![256]⟩)
    (hsc : (⟨1, ![256]⟩ : Shape).ShapeCasts ⟨2, ![256, 1]⟩)
    (w : FVec Ideal ⟨2, ![256, n]⟩ .f32) (r : Fin 256) :
    shapeCast ⟨2, ![256, 1]⟩ (multiReduction .add [1] ⟨1, ![256]⟩ w 0x00000000#32 hred (.inl rfl) rfl) hsc
        (ix2 r (0 : Fin 1))
      = ∑ k : Fin n, w (ix2 r k) := by
  refine (Cert.LibColumn.shapeCast_a_a1_apply _ hsc r 0).trans ?_
  refine (Ideal.multiReduction_add_single w 0x00000000#32 hred (.inl rfl) rfl (ix1 r)).trans ?_
  exact Finset.sum_congr rfl fun k _ => congrArg w (lift_ix1 hred r k)

/-- The row sums divided by the splat row length, read at row `r`: the mean of row `r`. -/
theorem rowMean_apply {n : ℕ} (Nbits : BitVec 32)
    (hred : (⟨2, ![256, n]⟩ : Shape).Reduces [1] ⟨1, ![256]⟩)
    (hsc : (⟨1, ![256]⟩ : Shape).ShapeCasts ⟨2, ![256, 1]⟩)
    (w : FVec Ideal ⟨2, ![256, n]⟩ .f32) (r : Fin 256) :
    (divf (shapeCast ⟨2, ![256, 1]⟩ (multiReduction .add [1] ⟨1, ![256]⟩ w 0x00000000#32 hred (.inl rfl) rfl) hsc)
        (broadcast ⟨2, ![256, 1]⟩ (Scalar.ofBits (F := Ideal) .f32 Nbits)) : FVec Ideal ⟨2, ![256, 1]⟩ .f32)
        (ix2 r (0 : Fin 1))
      = mean (Ideal.ofBits .f32 Nbits) (fun k => w (ix2 r k)) := by
  show Ideal.div _ (Ideal.ofBits .f32 Nbits) = Ideal.div _ _
  exact congrArg (fun s => Ideal.div s (Ideal.ofBits .f32 Nbits)) (rowSum_apply hred hsc w r)

/-- The deviations from the row mean, read at `(r, k)`: the entry less the mean of row `r`. -/
theorem dev_apply {n : ℕ} (Nbits : BitVec 32)
    (hred : (⟨2, ![256, n]⟩ : Shape).Reduces [1] ⟨1, ![256]⟩)
    (hsc : (⟨1, ![256]⟩ : Shape).ShapeCasts ⟨2, ![256, 1]⟩)
    (hbc : (⟨2, ![256, 1]⟩ : Shape).Broadcasts ⟨2, ![256, n]⟩)
    (v : FVec Ideal ⟨2, ![256, n]⟩ .f32) (r : Fin 256) (k : Fin n) :
    (subf v (broadcastTo ⟨2, ![256, n]⟩
        (divf (shapeCast ⟨2, ![256, 1]⟩ (multiReduction .add [1] ⟨1, ![256]⟩ v 0x00000000#32 hred (.inl rfl) rfl) hsc)
          (broadcast ⟨2, ![256, 1]⟩ (Scalar.ofBits (F := Ideal) .f32 Nbits))) hbc) : FVec Ideal ⟨2, ![256, n]⟩ .f32)
        (ix2 r k)
      = v (ix2 r k) - mean (Ideal.ofBits .f32 Nbits) (fun k => v (ix2 r k)) :=
  congrArg (fun m => v (ix2 r k) - m)
    ((Cert.LibColumn.broadcastTo_a1_ab_apply _ hbc r k).trans (rowMean_apply Nbits hred hsc v r))

/-- At the extended reals the chain's entry `(r, j)` is the layer norm of row `r` at column `j`. -/
theorem lnChain_apply {n : ℕ} (Nbits : BitVec 32)
    (hred : (⟨2, ![256, n]⟩ : Shape).Reduces [1] ⟨1, ![256]⟩)
    (hsc : (⟨1, ![256]⟩ : Shape).ShapeCasts ⟨2, ![256, 1]⟩)
    (hbc : (⟨2, ![256, 1]⟩ : Shape).Broadcasts ⟨2, ![256, n]⟩)
    (hbr : (⟨2, ![1, n]⟩ : Shape).Broadcasts ⟨2, ![256, n]⟩)
    (v : FVec Ideal ⟨2, ![256, n]⟩ .f32) (g b : FVec Ideal ⟨2, ![1, n]⟩ .f32) (r : Fin 256) (j : Fin n) :
    lnChain (F := Ideal) Nbits hred hsc hbc hbr v g b (ix2 r j)
      = lnorm (Ideal.ofBits .f32 Nbits) (fun k => v (ix2 r k)) (fun k => g (ix2 0 k)) (fun k => b (ix2 0 k)) j := by
  unfold lnChain lnorm
  dsimp only
  simp only [addf_apply, mulf_apply]
  refine congrArg₂ (· + ·) (congrArg₂ (· * ·) (congrArg₂ (· * ·) ?_ ?_) ?_) ?_
  · exact dev_apply Nbits hred hsc hbc v r j
  · refine (Cert.LibColumn.broadcastTo_a1_ab_apply _ hbc r j).trans ?_
    show Ideal.rsqrt (_ + Ideal.ofBits .f32 0x3727C5AC#32) = _
    refine congrArg (fun m => Ideal.rsqrt (m + Ideal.ofBits .f32 0x3727C5AC#32)) ?_
    refine (rowMean_apply Nbits hred hsc _ r).trans ?_
    refine congrArg (mean (Ideal.ofBits .f32 Nbits)) (funext fun k => ?_)
    exact congrArg₂ (· * ·) (dev_apply Nbits hred hsc hbc v r k) (dev_apply Nbits hred hsc hbc v r k)
  · exact broadcastTo_1b_ab_apply g hbr r j
  · exact broadcastTo_1b_ab_apply b hbr r j

/-- The selective part's layer norm is the chain on the block's first 512 columns (by unfolding). -/
theorem pay8_is_chain (x0 : Vec F S256x2048 .f32) (x9 x10 : Vec F S1x512 .f32) :
    k0_pay8 x0 x9 x10 = lnChain 0x44000000#32 reduces_S256x512_S256 shapeCasts_S256_S256x1 broadcasts_S256x1_S256x512
      broadcasts_S1x512_S256x512 (k0_pay2 x0) (shapeCast S1x512 x9 shapeCasts_S1x512_S1x512)
      (shapeCast S1x512 x10 shapeCasts_S1x512_S1x512) := rfl

end Cert.KernelIdeal.PayNorm

end
-- ==== Proof.PayLow.lean ====
/-
  The body's low-rank projection of a block, read at an entry.
-/
import proofs.«153052_j26560077758945_1_alg».proof.Proof.Gen.KernelIdeal.Skeleton
import proofs.«153052_j26560077758945_1_alg».proof.Proof.RowSpec
import proofs.«153052_j26560077758945_1_alg».proof.Proof.PayNorm
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayLow

open Idealize.ShloMosaic Idealize.ShloMosaic.ValueIdx Cert.KernelIdeal Cert.KernelIdeal.Gen Cert.RowSpec

open Cert.KernelIdeal.PayNorm

variable {F : FTy → Type} [FloatOps F]

/-- The low-rank chain, by unfolding: the three products of the (narrowed) normalised and second-input blocks with the
    three stretches of `dd`ᵀ, added, narrowed, and multiplied with `du`ᵀ. -/
theorem pay10_is_chain (v5 : FVec F S256x1536 .f32) (v6 : FVec F S256x2048 .bf16) (v37 : FVec F S256x512 .f32)
    (v39 : FVec F S1x1536 .f32) (v40 : Vec F S1x1536 .f32) (v66 : Vec F S512x64 .bf16) (v69 : Vec F S1536x64 .bf16)
    (v73 : Vec F S2048x64 .bf16) (v78 : Vec F S64x512 .bf16) :
    k0_pay10 v5 v6 v37 v39 v40 v66 v69 v73 v78
      = matmul dot_S256x64_S64x512_S256x512_1_0_0_1_n_n none
          (truncf .bf16
            (addf
              (addf
                (matmul dot_S256x512_S512x64_S256x64_1_0_0_1_n_n none (truncf .bf16 v37 bitsLt_bf16_f32)
                  (shapeCast S512x64 v66 shapeCasts_S512x64_S512x64) (constant S256x64 .f32 0x00000000#32))
                (matmul dot_S256x1536_S1536x64_S256x64_1_0_0_1_n_n none
                  (truncf .bf16
                    (lnChain 0x44C00000#32 reduces_S256x1536_S256 shapeCasts_S256_S256x1 broadcasts_S256x1_S256x1536
                      broadcasts_S1x1536_S256x1536 v5 v39 (shapeCast S1x1536 v40 shapeCasts_S1x1536_S1x1536))
                    bitsLt_bf16_f32)
                  (shapeCast S1536x64 v69 shapeCasts_S1536x64_S1536x64) (constant S256x64 .f32 0x00000000#32)))
              (matmul dot_S256x2048_S2048x64_S256x64_1_0_0_1_n_n none v6
                (shapeCast S2048x64 v73 shapeCasts_S2048x64_S2048x64) (constant S256x64 .f32 0x00000000#32)))
            bitsLt_bf16_f32)
          (shapeCast S64x512 v78 shapeCasts_S64x512_S64x512) (constant S256x512 .f32 0x00000000#32) := rfl

/-- The product of a 256×512 block with a 512×64 matrix: the left operand is read at (row, k), the right at (k, column). -/
theorem lhs_a_0 (i : S256x64.Idx) (q : dot_S256x512_S512x64_S256x64_1_0_0_1_n_n.contr.Idx) :
    (dot_S256x512_S512x64_S256x64_1_0_0_1_n_n.lhsIdx i q 0).val = (i 0).val := by
  unfold DotDims.lhsIdx
  rw [dif_neg (show ¬(0 : Fin S256x512.rank) ∈ dot_S256x512_S512x64_S256x64_1_0_0_1_n_n.lhsBatch by decide), dif_pos (show (0 : Fin S256x512.rank) ∈ dot_S256x512_S512x64_S256x64_1_0_0_1_n_n.lhsNonContracting by decide)]
  rfl
theorem lhs_a_1 (i : S256x64.Idx) (q : dot_S256x512_S512x64_S256x64_1_0_0_1_n_n.contr.Idx) :
    (dot_S256x512_S512x64_S256x64_1_0_0_1_n_n.lhsIdx i q 1).val = (q ⟨0, by decide⟩).val :=
  dot_S256x512_S512x64_S256x64_1_0_0_1_n_n.lhsIdx_val_of_single rfl i q
theorem rhs_a_0 (i : S256x64.Idx) (q : dot_S256x512_S512x64_S256x64_1_0_0_1_n_n.contr.Idx) :
    (dot_S256x512_S512x64_S256x64_1_0_0_1_n_n.rhsIdx i q 0).val = (q ⟨0, by decide⟩).val :=
  dot_S256x512_S512x64_S256x64_1_0_0_1_n_n.rhsIdx_val_of_single rfl i q
theorem rhs_a_1 (i : S256x64.Idx) (q : dot_S256x512_S512x64_S256x64_1_0_0_1_n_n.contr.Idx) :
    (dot_S256x512_S512x64_S256x64_1_0_0_1_n_n.rhsIdx i q 1).val = (i 1).val := by
  unfold DotDims.rhsIdx
  rw [dif_neg (show ¬(1 : Fin S512x64.rank) ∈ dot_S256x512_S512x64_S256x64_1_0_0_1_n_n.rhsBatch by decide), dif_pos (show (1 : Fin S512x64.rank) ∈ dot_S256x512_S512x64_S256x64_1_0_0_1_n_n.rhsNonContracting by decide)]
  rfl

/-- The product of a 256×512 block with a 512×64 matrix, from a zero accumulator: entry `(a, b)` is the sum over `k` of
    `lhs (a, k) · rhs (k, b)`. -/
theorem mm_a_apply (lhs : FVec Ideal S256x512 .bf16) (rhs : FVec Ideal S512x64 .bf16) (a : Fin 256) (b : Fin 64) :
    matmul dot_S256x512_S512x64_S256x64_1_0_0_1_n_n none lhs rhs (constant (F := Ideal) S256x64 .f32 0x00000000#32) (ix2 a b)
      = ∑ k : Fin 512, lhs (ix2 a k) * rhs (ix2 k b) := by
  simp only [matmul]
  rw [Ideal.matmul_constant_zero_apply, ← Equiv.sum_comp (contrEquiv1 dot_S256x512_S512x64_S256x64_1_0_0_1_n_n 512 rfl rfl).symm]
  refine Finset.sum_congr rfl fun k _ => ?_
  have hk := contrEquiv1_symm_val dot_S256x512_S512x64_S256x64_1_0_0_1_n_n 512 rfl rfl k
  have el : dot_S256x512_S512x64_S256x64_1_0_0_1_n_n.lhsIdx (ix2 a b) ((contrEquiv1 dot_S256x512_S512x64_S256x64_1_0_0_1_n_n 512 rfl rfl).symm k) = ix2 a k := funext fun ax => Fin.ext (by
    match ax with
    | ⟨0, _⟩ => exact lhs_a_0 _ _
    | ⟨1, _⟩ => exact (lhs_a_1 _ _).trans hk)
  have er : dot_S256x512_S512x64_S256x64_1_0_0_1_n_n.rhsIdx (ix2 a b) ((contrEquiv1 dot_S256x512_S512x64_S256x64_1_0_0_1_n_n 512 rfl rfl).symm k) = ix2 k b := funext fun ax => Fin.ext (by
    match ax with
    | ⟨0, _⟩ => exact (rhs_a_0 _ _).trans hk
    | ⟨1, _⟩ => exact rhs_a_1 _ _)
  rw [el, er]

/-- The product of a 256×1536 block with a 1536×64 matrix: the left operand is read at (row, k), the right at (k, column). -/
theorem lhs_b_0 (i : S256x64.Idx) (q : dot_S256x1536_S1536x64_S256x64_1_0_0_1_n_n.contr.Idx) :
    (dot_S256x1536_S1536x64_S256x64_1_0_0_1_n_n.lhsIdx i q 0).val = (i 0).val := by
  unfold DotDims.lhsIdx
  rw [dif_neg (show ¬(0 : Fin S256x1536.rank) ∈ dot_S256x1536_S1536x64_S256x64_1_0_0_1_n_n.lhsBatch by decide), dif_pos (show (0 : Fin S256x1536.rank) ∈ dot_S256x1536_S1536x64_S256x64_1_0_0_1_n_n.lhsNonContracting by decide)]
  rfl
theorem lhs_b_1 (i : S256x64.Idx) (q : dot_S256x1536_S1536x64_S256x64_1_0_0_1_n_n.contr.Idx) :
    (dot_S256x1536_S1536x64_S256x64_1_0_0_1_n_n.lhsIdx i q 1).val = (q ⟨0, by decide⟩).val :=
  dot_S256x1536_S1536x64_S256x64_1_0_0_1_n_n.lhsIdx_val_of_single rfl i q
theorem rhs_b_0 (i : S256x64.Idx) (q : dot_S256x1536_S1536x64_S256x64_1_0_0_1_n_n.contr.Idx) :
    (dot_S256x1536_S1536x64_S256x64_1_0_0_1_n_n.rhsIdx i q 0).val = (q ⟨0, by decide⟩).val :=
  dot_S256x1536_S1536x64_S256x64_1_0_0_1_n_n.rhsIdx_val_of_single rfl i q
theorem rhs_b_1 (i : S256x64.Idx) (q : dot_S256x1536_S1536x64_S256x64_1_0_0_1_n_n.contr.Idx) :
    (dot_S256x1536_S1536x64_S256x64_1_0_0_1_n_n.rhsIdx i q 1).val = (i 1).val := by
  unfold DotDims.rhsIdx
  rw [dif_neg (show ¬(1 : Fin S1536x64.rank) ∈ dot_S256x1536_S1536x64_S256x64_1_0_0_1_n_n.rhsBatch by decide), dif_pos (show (1 : Fin S1536x64.rank) ∈ dot_S256x1536_S1536x64_S256x64_1_0_0_1_n_n.rhsNonContracting by decide)]
  rfl

/-- The product of a 256×1536 block with a 1536×64 matrix, from a zero accumulator: entry `(a, b)` is the sum over `k` of
    `lhs (a, k) · rhs (k, b)`. -/
theorem mm_b_apply (lhs : FVec Ideal S256x1536 .bf16) (rhs : FVec Ideal S1536x64 .bf16) (a : Fin 256) (b : Fin 64) :
    matmul dot_S256x1536_S1536x64_S256x64_1_0_0_1_n_n none lhs rhs (constant (F := Ideal) S256x64 .f32 0x00000000#32) (ix2 a b)
      = ∑ k : Fin 1536, lhs (ix2 a k) * rhs (ix2 k b) := by
  simp only [matmul]
  rw [Ideal.matmul_constant_zero_apply, ← Equiv.sum_comp (contrEquiv1 dot_S256x1536_S1536x64_S256x64_1_0_0_1_n_n 1536 rfl rfl).symm]
  refine Finset.sum_congr rfl fun k _ => ?_
  have hk := contrEquiv1_symm_val dot_S256x1536_S1536x64_S256x64_1_0_0_1_n_n 1536 rfl rfl k
  have el : dot_S256x1536_S1536x64_S256x64_1_0_0_1_n_n.lhsIdx (ix2 a b) ((contrEquiv1 dot_S256x1536_S1536x64_S256x64_1_0_0_1_n_n 1536 rfl rfl).symm k) = ix2 a k := funext fun ax => Fin.ext (by
    match ax with
    | ⟨0, _⟩ => exact lhs_b_0 _ _
    | ⟨1, _⟩ => exact (lhs_b_1 _ _).trans hk)
  have er : dot_S256x1536_S1536x64_S256x64_1_0_0_1_n_n.rhsIdx (ix2 a b) ((contrEquiv1 dot_S256x1536_S1536x64_S256x64_1_0_0_1_n_n 1536 rfl rfl).symm k) = ix2 k b := funext fun ax => Fin.ext (by
    match ax with
    | ⟨0, _⟩ => exact (rhs_b_0 _ _).trans hk
    | ⟨1, _⟩ => exact rhs_b_1 _ _)
  rw [el, er]

/-- The product of a 256×2048 block with a 2048×64 matrix: the left operand is read at (row, k), the right at (k, column). -/
theorem lhs_c_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_c_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_c_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_c_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The product of a 256×2048 block with a 2048×64 matrix, from a zero accumulator: entry `(a, b)` is the sum over `k` of
    `lhs (a, k) · rhs (k, b)`. -/
theorem mm_c_apply (lhs : FVec Ideal S256x2048 .bf16) (rhs : FVec Ideal S2048x64 .bf16) (a : Fin 256) (b : Fin 64) :
    matmul dot_S256x2048_S2048x64_S256x64_1_0_0_1_n_n none lhs rhs (constant (F := Ideal) S256x64 .f32 0x00000000#32) (ix2 a b)
      = ∑ k : Fin 2048, lhs (ix2 a k) * rhs (ix2 k b) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 a b) ((contrEquiv1 dot_S256x2048_S2048x64_S256x64_1_0_0_1_n_n 2048 rfl rfl).symm k) = ix2 a k := funext fun ax => Fin.ext (by
    match ax with
    | ⟨0, _⟩ => exact lhs_c_0 _ _
    | ⟨1, _⟩ => exact (lhs_c_1 _ _).trans hk)
  have er : dot_S256x2048_S2048x64_S256x64_1_0_0_1_n_n.rhsIdx (ix2 a b) ((contrEquiv1 dot_S256x2048_S2048x64_S256x64_1_0_0_1_n_n 2048 rfl rfl).symm k) = ix2 k b := funext fun ax => Fin.ext (by
    match ax with
    | ⟨0, _⟩ => exact (rhs_c_0 _ _).trans hk
    | ⟨1, _⟩ => exact rhs_c_1 _ _)
  rw [el, er]

/-- The product of a 256×64 block with a 64×512 matrix: the left operand is read at (row, k), the right at (k, column). -/
theorem lhs_d_0 (i : S256x512.Idx) (q : dot_S256x64_S64x512_S256x512_1_0_0_1_n_n.contr.Idx) :
    (dot_S256x64_S64x512_S256x512_1_0_0_1_n_n.lhsIdx i q 0).val = (i 0).val := by
  unfold DotDims.lhsIdx
  rw [dif_neg (show ¬(0 : Fin S256x64.rank) ∈ dot_S256x64_S64x512_S256x512_1_0_0_1_n_n.lhsBatch by decide), dif_pos (show (0 : Fin S256x64.rank) ∈ dot_S256x64_S64x512_S256x512_1_0_0_1_n_n.lhsNonContracting by decide)]
  rfl
theorem lhs_d_1 (i : S256x512.Idx) (q : dot_S256x64_S64x512_S256x512_1_0_0_1_n_n.contr.Idx) :
    (dot_S256x64_S64x512_S256x512_1_0_0_1_n_n.lhsIdx i q 1).val = (q ⟨0, by decide⟩).val :=
  dot_S256x64_S64x512_S256x512_1_0_0_1_n_n.lhsIdx_val_of_single rfl i q
theorem rhs_d_0 (i : S256x512.Idx) (q : dot_S256x64_S64x512_S256x512_1_0_0_1_n_n.contr.Idx) :
    (dot_S256x64_S64x512_S256x512_1_0_0_1_n_n.rhsIdx i q 0).val = (q ⟨0, by decide⟩).val :=
  dot_S256x64_S64x512_S256x512_1_0_0_1_n_n.rhsIdx_val_of_single rfl i q
theorem rhs_d_1 (i : S256x512.Idx) (q : dot_S256x64_S64x512_S256x512_1_0_0_1_n_n.contr.Idx) :
    (dot_S256x64_S64x512_S256x512_1_0_0_1_n_n.rhsIdx i q 1).val = (i 1).val := by
  unfold DotDims.rhsIdx
  rw [dif_neg (show ¬(1 : Fin S64x512.rank) ∈ dot_S256x64_S64x512_S256x512_1_0_0_1_n_n.rhsBatch by decide), dif_pos (show (1 : Fin S64x512.rank) ∈ dot_S256x64_S64x512_S256x512_1_0_0_1_n_n.rhsNonContracting by decide)]
  rfl

/-- The product of a 256×64 block with a 64×512 matrix, from a zero accumulator: entry `(a, b)` is the sum over `k` of
    `lhs (a, k) · rhs (k, b)`. -/
theorem mm_d_apply (lhs : FVec Ideal S256x64 .bf16) (rhs : FVec Ideal S64x512 .bf16) (a : Fin 256) (b : Fin 512) :
    matmul dot_S256x64_S64x512_S256x512_1_0_0_1_n_n none lhs rhs (constant (F := Ideal) S256x512 .f32 0x00000000#32) (ix2 a b)
      = ∑ k : Fin 64, lhs (ix2 a k) * rhs (ix2 k b) := by
  simp only [matmul]
  rw [Ideal.matmul_constant_zero_apply, ← Equiv.sum_comp (contrEquiv1 dot_S256x64_S64x512_S256x512_1_0_0_1_n_n 64 rfl rfl).symm]
  refine Finset.sum_congr rfl fun k _ => ?_
  have hk := contrEquiv1_symm_val dot_S256x64_S64x512_S256x512_1_0_0_1_n_n 64 rfl rfl k
  have el : dot_S256x64_S64x512_S256x512_1_0_0_1_n_n.lhsIdx (ix2 a b) ((contrEquiv1 dot_S256x64_S64x512_S256x512_1_0_0_1_n_n 64 rfl rfl).symm k) = ix2 a k := funext fun ax => Fin.ext (by
    match ax with
    | ⟨0, _⟩ => exact lhs_d_0 _ _
    | ⟨1, _⟩ => exact (lhs_d_1 _ _).trans hk)
  have er : dot_S256x64_S64x512_S256x512_1_0_0_1_n_n.rhsIdx (ix2 a b) ((contrEquiv1 dot_S256x64_S64x512_S256x512_1_0_0_1_n_n 64 rfl rfl).symm k) = ix2 k b := funext fun ax => Fin.ext (by
    match ax with
    | ⟨0, _⟩ => exact (rhs_d_0 _ _).trans hk
    | ⟨1, _⟩ => exact rhs_d_1 _ _)
  rw [el, er]

/-- At the extended reals, entry `(r, d)` of the low-rank chain: the sum over the 64 rank indices `q` of (the three
    stretches of row `r` against column `q` of `dd`ᵀ) times `du`ᵀ `(q, d)`. The middle stretch is the layer norm of the
    residual columns; the narrowing of a block's format changes no number. -/
theorem pay10_apply (v5 : FVec Ideal S256x1536 .f32) (v6 : FVec Ideal S256x2048 .bf16) (v37 : FVec Ideal S256x512 .f32)
    (v39 : FVec Ideal S1x1536 .f32) (v40 : Vec Ideal S1x1536 .f32) (v66 : Vec Ideal S512x64 .bf16)
    (v69 : Vec Ideal S1536x64 .bf16) (v73 : Vec Ideal S2048x64 .bf16) (v78 : Vec Ideal S64x512 .bf16)
    (r : Fin 256) (d : Fin 512) :
    k0_pay10 (F := Ideal) v5 v6 v37 v39 v40 v66 v69 v73 v78 (ix2 r d)
      = ∑ q : Fin 64,
          ((∑ c : Fin 512, v37 (ix2 r c) * v66 (ix2 c q)
              + ∑ c : Fin 1536, lnorm (Ideal.ofBits .f32 0x44C00000#32) (fun e => v5 (ix2 r e)) (fun e => v39 (ix2 0 e))
                  (fun e => v40 (ix2 0 e)) c * v69 (ix2 c q))
            + ∑ c : Fin 2048, v6 (ix2 r c) * v73 (ix2 c q))
          * v78 (ix2 q d) := by
  rw [pay10_is_chain, mm_d_apply]
  refine Finset.sum_congr rfl fun q _ => ?_
  rw [shapeCast_self, truncf_apply, addf_apply, addf_apply, mm_a_apply, mm_b_apply, mm_c_apply, shapeCast_self,
    shapeCast_self, shapeCast_self, shapeCast_self]
  refine congrArg (fun t => t * v78 (ix2 q d)) ?_
  refine congrArg (fun t => t + ∑ c : Fin 2048, v6 (ix2 r c) * v73 (ix2 c q)) ?_
  refine congrArg₂ (fun s t => s + t) ?_ ?_
  · exact Finset.sum_congr rfl fun c _ => rfl
  · refine Finset.sum_congr rfl fun c _ => ?_
    rw [truncf_apply, lnChain_apply]

end Cert.KernelIdeal.PayLow

end
-- ==== Proof.PayGate.lean ====
/-
  The body's gate, read at an entry: softplus of the pre-activation and of the decay parameter, the exponential, the quotient, and the two products added.
-/
import proofs.«153052_j26560077758945_1_alg».proof.Proof.Gen.KernelIdeal.Skeleton
import proofs.«153052_j26560077758945_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayGate

open Idealize.ShloMosaic Idealize.ShloMosaic.ValueIdx Cert.KernelIdeal Cert.KernelIdeal.Gen Cert.RowSpec

/-- The comparison of an extended real with itself for inequality is the bit `0`. -/
theorem cmp_one_self (a : EReal) : Ideal.cmp .one a a = 0#1 := by
  simp [Ideal.cmp]

/-- The body's spelling of softplus at one extended real, the zero written as its 32-bit word: the select's condition
    is the bit `0`, `x - 0 = x` and `0 - y = -y`. -/
theorem softplus_spelt (x : EReal) :
    Scalar.select (Ideal.cmp .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32)))))
      = softplus x := by
  rw [cmp_one_self, select_zero, Ideal.ofBits_zero_f32, sub_zero, zero_sub]
  rfl

/-- The body's softplus of an array, read at an index: every operation is entrywise, so the entry is the scalar
    spelling at the array's entry. -/
theorem softplus_vec_apply {s : Shape} (x : FVec Ideal s .f32) (i : s.Idx) :
    select
        (cmpf .one (subf x (broadcast s (FloatOps.ofBits (F := Ideal) .f32 0x00000000#32)))
          (subf x (broadcast s (FloatOps.ofBits (F := Ideal) .f32 0x00000000#32))))
        (addf x (broadcast s (FloatOps.ofBits (F := Ideal) .f32 0x00000000#32)))
        (addf (maximumf x (broadcast s (FloatOps.ofBits (F := Ideal) .f32 0x00000000#32)))
          (log1p (exp (subf (broadcast s (FloatOps.ofBits (F := Ideal) .f32 0x00000000#32))
            (absf (subf x (broadcast s (FloatOps.ofBits (F := Ideal) .f32 0x00000000#32)))))))) i
      = softplus (x i) :=
  softplus_spelt (x i)

/-- The body's `0 - softplus` of an array, read at an index, is the negated softplus of the entry. -/
theorem neg_softplus_vec_apply {s : Shape} (x : FVec Ideal s .f32) (i : s.Idx) :
    subf (broadcast s (FloatOps.ofBits (F := Ideal) .f32 0x00000000#32))
      (select
        (cmpf .one (subf x (broadcast s (FloatOps.ofBits (F := Ideal) .f32 0x00000000#32)))
          (subf x (broadcast s (FloatOps.ofBits (F := Ideal) .f32 0x00000000#32))))
        (addf x (broadcast s (FloatOps.ofBits (F := Ideal) .f32 0x00000000#32)))
        (addf (maximumf x (broadcast s (FloatOps.ofBits (F := Ideal) .f32 0x00000000#32)))
          (log1p (exp (subf (broadcast s (FloatOps.ofBits (F := Ideal) .f32 0x00000000#32))
            (absf (subf x (broadcast s (FloatOps.ofBits (F := Ideal) .f32 0x00000000#32))))))))) i
      = -(softplus (x i)) := by
  refine (subf_apply _ _ i).trans ?_
  rw [softplus_vec_apply x i]
  show Ideal.ofBits .f32 0x00000000#32 - softplus (x i) = -(softplus (x i))
  rw [Ideal.ofBits_zero_f32, zero_sub]

/-- The exponential of an array, read at an index. -/
theorem exp_apply {s : Shape} (x : FVec Ideal s .f32) (i : s.Idx) : exp x i = Ideal.exp (x i) := rfl

/-- The negated softplus of a one-row array, broadcast over 256 rows and read at `(r, d)`, is the row's entry `d`. -/
theorem neg_softplus_row_apply (x : FVec Ideal S1x512 .f32) (h : S1x512.Broadcasts S256x512) (r : Fin 256) (d : Fin 512) :
    broadcastTo S256x512
      (subf (broadcast S1x512 (FloatOps.ofBits (F := Ideal) .f32 0x00000000#32))
        (select
          (cmpf .one (subf x (broadcast S1x512 (FloatOps.ofBits (F := Ideal) .f32 0x00000000#32)))
            (subf x (broadcast S1x512 (FloatOps.ofBits (F := Ideal) .f32 0x00000000#32))))
          (addf x (broadcast S1x512 (FloatOps.ofBits (F := Ideal) .f32 0x00000000#32)))
          (addf (maximumf x (broadcast S1x512 (FloatOps.ofBits (F := Ideal) .f32 0x00000000#32)))
            (log1p (exp (subf (broadcast S1x512 (FloatOps.ofBits (F := Ideal) .f32 0x00000000#32))
              (absf (subf x (broadcast S1x512 (FloatOps.ofBits (F := Ideal) .f32 0x00000000#32))))))))))
      h (ix2 r d)
      = -(softplus (x (ix2 0 d))) :=
  (broadcastTo_1b_ab_apply _ h r d).trans (neg_softplus_vec_apply x (ix2 0 d))

/-- Entry `(r, d)` of the selective output block is the gate of the pre-activation `v80 (r, d) + dub d`, the decay
    parameter `A d`, the hidden entry and the projected entry. The body's `0 - x` is `-x`, its `x - 0` and `x + 0` are
    `x`, and the comparison of a number with itself for inequality never holds, so the select takes its second branch. -/
theorem pay11_apply (v4 v10 v80 : FVec Ideal S256x512 .f32) (v81 v99 : Vec Ideal S1x512 .f32) (r : Fin 256) (d : Fin 512) :
    k0_pay11 (F := Ideal) v4 v10 v80 v81 v99 (ix2 r d)
      = gate (v80 (ix2 r d) + v81 (ix2 0 d)) (v99 (ix2 0 d)) (v4 (ix2 r d)) (v10 (ix2 r d)) := by
  unfold k0_pay11
  rw [shapeCast_self, shapeCast_self]
  refine (addf_apply _ _ (ix2 r d)).trans ?_
  rw [mulf_apply, mulf_apply, divf_apply, subf_apply, exp_apply, mulf_apply, softplus_vec_apply,
    neg_softplus_row_apply, addf_apply, broadcastTo_1b_ab_apply, broadcast_apply]
  rfl

end Cert.KernelIdeal.PayGate

end
-- ==== Proof.PayRow.lean ====
/-
  What the body leaves in the output block, entry by entry, as the row function of the blocks it loaded.
-/
import proofs.«153052_j26560077758945_1_alg».proof.Proof.Gen.KernelIdeal.Skeleton
import proofs.«153052_j26560077758945_1_alg».proof.Proof.RowSpec
import proofs.«153052_j26560077758945_1_alg».proof.Proof.PaySlices
import proofs.«153052_j26560077758945_1_alg».proof.Proof.PayNorm
import proofs.«153052_j26560077758945_1_alg».proof.Proof.PayLow
import proofs.«153052_j26560077758945_1_alg».proof.Proof.PayGate
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayRow

open Idealize.ShloMosaic Idealize.ShloMosaic.ValueIdx Cert.KernelIdeal Cert.KernelIdeal.Gen Cert.RowSpec

open Cert.KernelIdeal.PaySlices Cert.KernelIdeal.PayNorm Cert.KernelIdeal.PayLow Cert.KernelIdeal.PayGate

/-- The output block as one function of the thirteen loaded blocks: entry `(r, j)` is column `j` of the row function of
    row `r` of the two input blocks and the (transposed, cut) weights as the body holds them. -/
def blockG (x0 x1 : Vec Ideal S256x2048 .f32) (x2 : Vec Ideal S2048x2048 .bf16) (x3 : Vec Ideal S512x64 .bf16)
    (x4 : Vec Ideal S1536x64 .bf16) (x5 : Vec Ideal S2048x64 .bf16) (x6 : Vec Ideal S64x512 .bf16)
    (x7 x8 x9 x10 : Vec Ideal S1x512 .f32) (x11 x12 : Vec Ideal S1x1536 .f32) : S256x2048.Idx → EReal := fun y =>
  rowOut (fun k => x0 (ix2 (y 0) k)) (fun k => x1 (ix2 (y 0) k)) (fun d => x8 (ix2 0 d)) (fun h k => x2 (ix2 k h))
    (fun q c => x3 (ix2 c q)) (fun q c => x4 (ix2 c q)) (fun q c => x5 (ix2 c q)) (fun d q => x6 (ix2 q d))
    (fun d => x7 (ix2 0 d)) (fun d => x9 (ix2 0 d)) (fun d => x10 (ix2 0 d)) (fun e => x11 (ix2 0 e))
    (fun e => x12 (ix2 0 e)) (y 1)

/-- The selective part's layer norm at `(r, c)`: the layer norm of the first 512 columns of row `r`. -/
theorem pay8_apply (x0 : Vec Ideal S256x2048 .f32) (x9 x10 : Vec Ideal S1x512 .f32) (r : Fin 256) (c : Fin 512) :
    k0_pay8 (F := Ideal) x0 x9 x10 (ix2 r c)
      = lnorm (Ideal.ofBits .f32 0x44000000#32) (fun d => x0 (ix2 r (inSel d))) (fun d => x9 (ix2 0 d)) (fun d => x10 (ix2 0 d)) c := by
  rw [pay8_is_chain]
  refine (lnChain_apply _ _ _ _ _ _ _ _ r c).trans ?_
  simp only [shapeCast_self, pay2_apply]

/-- The payload of the store to columns 0 … 511, at `(r, d)`. -/
theorem pay_sel (x0 x1 : Vec Ideal S256x2048 .f32) (x2 : Vec Ideal S2048x2048 .bf16) (x3 : Vec Ideal S512x64 .bf16)
    (x4 : Vec Ideal S1536x64 .bf16) (x5 : Vec Ideal S2048x64 .bf16) (x6 : Vec Ideal S64x512 .bf16)
    (x7 x8 x9 x10 : Vec Ideal S1x512 .f32) (x11 x12 : Vec Ideal S1x1536 .f32) (r : Fin 256) (d : Fin 512) :
    k0_pay11 (F := Ideal) (k0_pay2 x0) (k0_pay6 x1 x2)
        (k0_pay10 (k0_pay3 x0) (k0_pay4 x1) (k0_pay8 x0 x9 x10) (k0_pay9 x11) x12 x3 x4 x5 x6) x7 x8 (ix2 r d)
      = blockG x0 x1 x2 x3 x4 x5 x6 x7 x8 x9 x10 x11 x12 (ix2 r (inSel d)) := by
  rw [pay11_apply, pay10_apply, pay2_apply, pay6_apply]
  show _ = rowOut (fun k => x0 (ix2 r k)) (fun k => x1 (ix2 r k)) (fun d => x8 (ix2 0 d)) (fun h k => x2 (ix2 k h))
    (fun q c => x3 (ix2 c q)) (fun q c => x4 (ix2 c q)) (fun q c => x5 (ix2 c q)) (fun d q => x6 (ix2 q d))
    (fun d => x7 (ix2 0 d)) (fun d => x9 (ix2 0 d)) (fun d => x10 (ix2 0 d)) (fun e => x11 (ix2 0 e))
    (fun e => x12 (ix2 0 e)) (inSel d)
  rw [rowOut_inSel]
  unfold selOut low wy
  simp only [pay8_apply, pay3_apply, pay9_apply, pay4_apply]

/-- The payload of the store to columns 512 … 2047, at `(r, e)`. -/
theorem pay_res (x0 x1 : Vec Ideal S256x2048 .f32) (x2 : Vec Ideal S2048x2048 .bf16) (x3 : Vec Ideal S512x64 .bf16)
    (x4 : Vec Ideal S1536x64 .bf16) (x5 : Vec Ideal S2048x64 .bf16) (x6 : Vec Ideal S64x512 .bf16)
    (x7 x8 x9 x10 : Vec Ideal S1x512 .f32) (x11 x12 : Vec Ideal S1x1536 .f32) (r : Fin 256) (e : Fin 1536) :
    k0_pay12 (F := Ideal) (k0_pay3 x0) (k0_pay7 x1 x2) (ix2 r e)
      = blockG x0 x1 x2 x3 x4 x5 x6 x7 x8 x9 x10 x11 x12 (ix2 r (inRes e)) := by
  rw [pay12_apply, pay3_apply, pay7_apply]
  show _ = rowOut (fun k => x0 (ix2 r k)) (fun k => x1 (ix2 r k)) (fun d => x8 (ix2 0 d)) (fun h k => x2 (ix2 k h))
    (fun q c => x3 (ix2 c q)) (fun q c => x4 (ix2 c q)) (fun q c => x5 (ix2 c q)) (fun d q => x6 (ix2 q d))
    (fun d => x7 (ix2 0 d)) (fun d => x9 (ix2 0 d)) (fun d => x10 (ix2 0 d)) (fun e => x11 (ix2 0 e))
    (fun e => x12 (ix2 0 e)) (inRes e)
  rw [rowOut_inRes]
  rfl

end Cert.KernelIdeal.PayRow

end
-- ==== Proof.BlockOut.lean ====
/-
  What the body's run leaves in the output's staging buffer: its two stores, to columns 0 … 511 and to columns 512 … 2047, together are the block function.
-/
import proofs.«153052_j26560077758945_1_alg».proof.Proof.Gen.KernelIdeal.Frame
import proofs.«153052_j26560077758945_1_alg».proof.Proof.RowSpec
import proofs.«153052_j26560077758945_1_alg».proof.Proof.PayRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockOut

open Idealize.ShloMosaic Idealize.ShloMosaic.ValueIdx Cert.KernelIdeal Cert.KernelIdeal.Gen Cert.RowSpec

open Idealize.ShloMosaic.TcCoe Idealize.ShloMosaic.Tactic
open Idealize.SL Idealize.SL.Sem
open Idealize.ShloMosaic.Pipeline (Dat Cfg Window)

open Cert.KernelIdeal.PayRow

/-- A load of a whole buffer through the full rectangle at zero offsets reads the values the buffer holds. -/
theorem readAt_full {sg : RefSig} {κ : Kind} {sp : Space} {s : Shape} {e : EltTy} {Val : EltTy → Type}
    (m : Memref sg κ sp s e) (h : m.IsWhole) (X : s.Idx → Val e) {off : Fin s.rank → Nat} (hz : off = fun _ => 0)
    (inb : ∀ a, off a + s.size a ≤ s.size a) :
    View.readAt Val m.view (Rect.unit off s.size inb).toLoadRect (h.unread X) = X := by
  show View.ld (m.view.read Val (h.unread X)) (Rect.unit off s.size inb) = X
  rw [h.read_unread X]
  exact View.ld_unit_zero hz inb X

/-- The offsets `(0, 0)` are the zero offsets. -/
theorem hz2 : (![0, 0] : Fin 2 → Nat) = fun _ => 0 := funext fun a => by fin_cases a <;> rfl

/-- The rectangle of columns 0 … 511 places its local index `(r, d)` at `(r, d)`. -/
theorem emb_sel (r : Fin 256) (d : Fin 512) :
    (Rect.unit (s := S256x2048) ![0, 0] S256x512.size inb_S256x2048_S256x512_0_0).emb (ix2 r d) = ix2 r (inSel d) :=
  funext fun a => Fin.ext (by
    match a with
    | ⟨0, _⟩ => show 0 + 1 * r.val = r.val; omega
    | ⟨1, _⟩ => show 0 + 1 * d.val = d.val; omega)

/-- The rectangle of columns 512 … 2047 places its local index `(r, e)` at `(r, 512 + e)`. -/
theorem emb_res (r : Fin 256) (e : Fin 1536) :
    (Rect.unit (s := S256x2048) ![0, 512] S256x1536.size inb_S256x2048_S256x1536_0_512).emb (ix2 r e) = ix2 r (inRes e) :=
  funext fun a => Fin.ext (by
    match a with
    | ⟨0, _⟩ => show 0 + 1 * r.val = r.val; omega
    | ⟨1, _⟩ => show 512 + 1 * e.val = 512 + e.val; omega)

set_option maxRecDepth 65536 in
/-- The body's two stores, last first, with the loaded blocks read back as the values the buffers hold. -/
theorem pieces_eq (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S512x64 .bf16) (harg4 : arg4.IsWhole) (arg5 : Memref sig .tc .vmem S1536x64 .bf16) (harg5 : arg5.IsWhole) (arg6 : Memref sig .tc .vmem S2048x64 .bf16) (harg6 : arg6.IsWhole) (arg7 : Memref sig .tc .vmem S64x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S256x2048 .f32) (harg14 : arg14.IsWhole)
    (x0 x1 : Vec Ideal S256x2048 .f32) (x2 : Vec Ideal S2048x2048 .bf16) (x3 : Vec Ideal S512x64 .bf16) (x4 : Vec Ideal S1536x64 .bf16) (x5 : Vec Ideal S2048x64 .bf16) (x6 : Vec Ideal S64x512 .bf16) (x7 x8 x9 x10 : Vec Ideal S1x512 .f32) (x11 x12 : Vec Ideal S1x1536 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).1
      = [⟨Rect.unit (s := S256x2048) ![0, 512] S256x1536.size inb_S256x2048_S256x1536_0_512, k0_pay12 (F := Ideal) (k0_pay3 x0) (k0_pay7 x1 x2)⟩,
         ⟨Rect.unit (s := S256x2048) ![0, 0] S256x512.size inb_S256x2048_S256x512_0_0, k0_pay11 (F := Ideal) (k0_pay2 x0) (k0_pay6 x1 x2) (k0_pay10 (k0_pay3 x0) (k0_pay4 x1) (k0_pay8 x0 x9 x10) (k0_pay9 x11) x12 x3 x4 x5 x6) x7 x8⟩] := by
  unfold kernelRun0_A
  dsimp only
  sl_unfold_words
  rw [readAt_full arg1 harg1 x0 hz2, readAt_full arg2 harg2 x1 hz2, readAt_full arg3 harg3 x2 hz2,
    readAt_full arg4 harg4 x3 hz2, readAt_full arg5 harg5 x4 hz2, readAt_full arg6 harg6 x5 hz2,
    readAt_full arg7 harg7 x6 hz2, readAt_full arg8 harg8 x7 hz2, readAt_full arg9 harg9 x8 hz2,
    readAt_full arg10 harg10 x9 hz2, readAt_full arg11 harg11 x10 hz2, readAt_full arg12 harg12 x11 hz2,
    readAt_full arg13 harg13 x12 hz2]

/-- The staging buffer after the body, as one function of the loaded blocks. -/
theorem out_block (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S512x64 .bf16) (harg4 : arg4.IsWhole) (arg5 : Memref sig .tc .vmem S1536x64 .bf16) (harg5 : arg5.IsWhole) (arg6 : Memref sig .tc .vmem S2048x64 .bf16) (harg6 : arg6.IsWhole) (arg7 : Memref sig .tc .vmem S64x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S256x2048 .f32) (harg14 : arg14.IsWhole)
    (x0 x1 : Vec Ideal S256x2048 .f32) (x2 : Vec Ideal S2048x2048 .bf16) (x3 : Vec Ideal S512x64 .bf16) (x4 : Vec Ideal S1536x64 .bf16) (x5 : Vec Ideal S2048x64 .bf16) (x6 : Vec Ideal S64x512 .bf16) (x7 x8 x9 x10 : Vec Ideal S1x512 .f32) (x11 x12 : Vec Ideal S1x1536 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = blockG x0 x1 x2 x3 x4 x5 x6 x7 x8 x9 x10 x11 x12 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  funext y
  refine View.canon_apply_of_pieces (blockG x0 x1 x2 x3 x4 x5 x6 x7 x8 x9 x10 x11 x12) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 y)
  rw [pieces_eq]
  intro p hp x
  simp only [List.mem_cons, List.mem_singleton, List.not_mem_nil, or_false] at hp
  rcases hp with rfl | rfl
  · obtain ⟨r, e, rfl⟩ : ∃ (r : Fin 256) (e : Fin 1536), x = ix2 r e := ⟨x 0, x 1, eq_ix2 x⟩
    exact (pay_res x0 x1 x2 x3 x4 x5 x6 x7 x8 x9 x10 x11 x12 r e).trans (congrArg (blockG x0 x1 x2 x3 x4 x5 x6 x7 x8 x9 x10 x11 x12) (emb_res r e).symm)
  · obtain ⟨r, d, rfl⟩ : ∃ (r : Fin 256) (d : Fin 512), x = ix2 r d := ⟨x 0, x 1, eq_ix2 x⟩
    exact (pay_sel x0 x1 x2 x3 x4 x5 x6 x7 x8 x9 x10 x11 x12 r d).trans (congrArg (blockG x0 x1 x2 x3 x4 x5 x6 x7 x8 x9 x10 x11 x12) (emb_sel r d).symm)

end Cert.KernelIdeal.BlockOut

end
-- ==== Proof.HostArrays.lean ====
/-
  The arrays the region finds, entry by entry, from the arguments: the host lines before the call reshape the two inputs to 16384 rows, transpose (and narrow) the weights, cut dd's columns into their three stretches, and give the vectors a unit row axis.

  Each buffer's contents are first written as the layout operations applied to the argument (the fold of the host
  lines read at that buffer), then read at the index: a reshape keeps the row-major position, a transpose swaps the two
  coordinates, a cut along the columns adds its offset, and the narrowing is the identity on extended reals.
-/
import proofs.«153052_j26560077758945_1_alg».proof.Proof.Gen.KernelIdeal.Frame
import proofs.«153052_j26560077758945_1_alg».proof.Proof.RowSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.HostArrays

open Idealize.ShloMosaic Idealize.ShloMosaic.ValueIdx Cert.KernelIdeal Cert.KernelIdeal.Gen Cert.RowSpec

open Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- Row `R` of the reshaped hidden states is row `(R / 4096, R % 4096)` of the argument. -/
theorem V_v0_apply (c : Dev nD) (R : Fin 16384) (k : Fin 2048) :
    (V m c main_v0 : S16384x2048.Idx → EReal) (ix2 R k)
      = ((m ((c : Thread nD τ).loc main_arg0)) : S4x4096x2048.Idx → EReal)
          (ix3 (⟨R.val / 4096, by have := R.isLt; omega⟩ : Fin 4) (⟨R.val % 4096, Nat.mod_lt _ (by norm_num)⟩ : Fin 4096) k) := by
  have hV : (V m c main_v0 : S16384x2048.Idx → EReal)
      = shapeCast S16384x2048 ((m ((c : Thread nD τ).loc main_arg0)) : S4x4096x2048.Idx → EReal) shapeCasts_S4x4096x2048_S16384x2048 := by
    show StableHlo.after hostOps0 (fun b => m (c, b)) (Proc.devRef .tc main_v0) = _
    after_results
    rfl
  rw [hV]
  refine shapeCast_apply (s := S4x4096x2048) (t := S16384x2048) _ _ _ _ ?_
  rw [Shape.rowMajor_val_two, Shape.rowMajor_val_three]
  show (R.val / 4096 * 4096 + R.val % 4096) * 2048 + k.val = R.val * 2048 + k.val
  rw [Nat.div_add_mod' R.val 4096]

theorem V_v1_apply (c : Dev nD) (R : Fin 16384) (k : Fin 2048) :
    (V m c main_v1 : S16384x2048.Idx → EReal) (ix2 R k)
      = ((m ((c : Thread nD τ).loc main_arg1)) : S4x4096x2048.Idx → EReal)
          (ix3 (⟨R.val / 4096, by have := R.isLt; omega⟩ : Fin 4) (⟨R.val % 4096, Nat.mod_lt _ (by norm_num)⟩ : Fin 4096) k) := by
  have hV : (V m c main_v1 : S16384x2048.Idx → EReal)
      = shapeCast S16384x2048 ((m ((c : Thread nD τ).loc main_arg1)) : S4x4096x2048.Idx → EReal) shapeCasts_S4x4096x2048_S16384x2048 := by
    show StableHlo.after hostOps0 (fun b => m (c, b)) (Proc.devRef .tc main_v1) = _
    after_results
    rfl
  rw [hV]
  refine shapeCast_apply (s := S4x4096x2048) (t := S16384x2048) _ _ _ _ ?_
  rw [Shape.rowMajor_val_two, Shape.rowMajor_val_three]
  show (R.val / 4096 * 4096 + R.val % 4096) * 2048 + k.val = R.val * 2048 + k.val
  rw [Nat.div_add_mod' R.val 4096]

/-- `Wᵀ`, narrowed: entry `(k, h)` is `W (h, k)`. -/
theorem V_v3_apply (c : Dev nD) (k h : Fin 2048) :
    (V m c main_v3 : S2048x2048.Idx → EReal) (ix2 k h) = ((m ((c : Thread nD τ).loc main_arg3)) : S2048x2048.Idx → EReal) (ix2 h k) := by
  have hV : (V m c main_v3 : S2048x2048.Idx → EReal)
      = (truncf (F := Ideal) .bf16 (transpose S2048x2048 [1, 0] ((m ((c : Thread nD τ).loc main_arg3)) : S2048x2048.Idx → EReal)
          transposes_S2048x2048_S2048x2048_1_0) bitsLt_bf16_f32 : S2048x2048.Idx → EReal) := by
    show StableHlo.after hostOps0 (fun b => m (c, b)) (Proc.devRef .tc main_v3) = _
    after_results
  rw [hV]
  refine (truncf_apply (φ := .f32) (ψ := .bf16) _ bitsLt_bf16_f32 (ix2 k h)).trans ?_
  exact transpose_ix2_apply (a := 2048) (b := 2048) _ _ k h

/-- The three stretches of `dd`'s columns, transposed and narrowed. -/
theorem V_v6_apply (c : Dev nD) (col : Fin 512) (q : Fin 64) :
    (V m c main_v6 : S512x64.Idx → EReal) (ix2 col q) = ((m ((c : Thread nD τ).loc main_arg4)) : S64x4096.Idx → EReal) (ix2 q (colSel col)) := by
  have hV : (V m c main_v6 : S512x64.Idx → EReal)
      = (truncf (F := Ideal) .bf16 (transpose S512x64 [1, 0]
          (extractStridedSlice S64x512 ![0, 0] ((m ((c : Thread nD τ).loc main_arg4)) : S64x4096.Idx → EReal) slices_S64x4096_S64x512_0_0)
          transposes_S64x512_S512x64_1_0) bitsLt_bf16_f32 : S512x64.Idx → EReal) := by
    show StableHlo.after hostOps0 (fun b => m (c, b)) (Proc.devRef .tc main_v6) = _
    after_results
  rw [hV]
  refine (truncf_apply (φ := .f32) (ψ := .bf16) _ bitsLt_bf16_f32 (ix2 col q)).trans ?_
  refine (transpose_ix2_apply (a := 64) (b := 512) _ _ col q).trans ?_
  exact slice2_axis1_apply 0 _ _ q col (colSel col) (Nat.zero_add _).symm

theorem V_v9_apply (c : Dev nD) (col : Fin 1536) (q : Fin 64) :
    (V m c main_v9 : S1536x64.Idx → EReal) (ix2 col q) = ((m ((c : Thread nD τ).loc main_arg4)) : S64x4096.Idx → EReal) (ix2 q (colRes col)) := by
  have hV : (V m c main_v9 : S1536x64.Idx → EReal)
      = (truncf (F := Ideal) .bf16 (transpose S1536x64 [1, 0]
          (extractStridedSlice S64x1536 ![0, 512] ((m ((c : Thread nD τ).loc main_arg4)) : S64x4096.Idx → EReal) slices_S64x4096_S64x1536_0_512)
          transposes_S64x1536_S1536x64_1_0) bitsLt_bf16_f32 : S1536x64.Idx → EReal) := by
    show StableHlo.after hostOps0 (fun b => m (c, b)) (Proc.devRef .tc main_v9) = _
    after_results
  rw [hV]
  refine (truncf_apply (φ := .f32) (ψ := .bf16) _ bitsLt_bf16_f32 (ix2 col q)).trans ?_
  refine (transpose_ix2_apply (a := 64) (b := 1536) _ _ col q).trans ?_
  exact slice2_axis1_apply 512 _ _ q col (colRes col) rfl

theorem V_v12_apply (c : Dev nD) (col : Fin 2048) (q : Fin 64) :
    (V m c main_v12 : S2048x64.Idx → EReal) (ix2 col q) = ((m ((c : Thread nD τ).loc main_arg4)) : S64x4096.Idx → EReal) (ix2 q (colY col)) := by
  have hV : (V m c main_v12 : S2048x64.Idx → EReal)
      = (truncf (F := Ideal) .bf16 (transpose S2048x64 [1, 0]
          (extractStridedSlice S64x2048 ![0, 2048] ((m ((c : Thread nD τ).loc main_arg4)) : S64x4096.Idx → EReal) slices_S64x4096_S64x2048_0_2048)
          transposes_S64x2048_S2048x64_1_0) bitsLt_bf16_f32 : S2048x64.Idx → EReal) := by
    show StableHlo.after hostOps0 (fun b => m (c, b)) (Proc.devRef .tc main_v12) = _
    after_results
  rw [hV]
  refine (truncf_apply (φ := .f32) (ψ := .bf16) _ bitsLt_bf16_f32 (ix2 col q)).trans ?_
  refine (transpose_ix2_apply (a := 64) (b := 2048) _ _ col q).trans ?_
  exact slice2_axis1_apply 2048 _ _ q col (colY col) rfl

/-- `du`ᵀ, narrowed. -/
theorem V_v14_apply (c : Dev nD) (q : Fin 64) (d : Fin 512) :
    (V m c main_v14 : S64x512.Idx → EReal) (ix2 q d) = ((m ((c : Thread nD τ).loc main_arg5)) : S512x64.Idx → EReal) (ix2 d q) := by
  have hV : (V m c main_v14 : S64x512.Idx → EReal)
      = (truncf (F := Ideal) .bf16 (transpose S64x512 [1, 0] ((m ((c : Thread nD τ).loc main_arg5)) : S512x64.Idx → EReal)
          transposes_S512x64_S64x512_1_0) bitsLt_bf16_f32 : S64x512.Idx → EReal) := by
    show StableHlo.after hostOps0 (fun b => m (c, b)) (Proc.devRef .tc main_v14) = _
    after_results
  rw [hV]
  refine (truncf_apply (φ := .f32) (ψ := .bf16) _ bitsLt_bf16_f32 (ix2 q d)).trans ?_
  exact transpose_ix2_apply (a := 512) (b := 64) _ _ q d

/-- The vectors with a unit row axis. -/
theorem V_v15_apply (c : Dev nD) (d : Fin 512) :
    (V m c main_v15 : S1x512.Idx → EReal) (ix2 (0 : Fin 1) d) = ((m ((c : Thread nD τ).loc main_arg6)) : S512.Idx → EReal) (ix1 d) := by
  have hV : (V m c main_v15 : S1x512.Idx → EReal)
      = shapeCast S1x512 ((m ((c : Thread nD τ).loc main_arg6)) : S512.Idx → EReal) shapeCasts_S512_S1x512 := by
    show StableHlo.after hostOps0 (fun b => m (c, b)) (Proc.devRef .tc main_v15) = _
    after_results
    rfl
  rw [hV]
  exact shapeCast_a_1a_apply _ _ (0 : Fin 1) d

theorem V_v16_apply (c : Dev nD) (d : Fin 512) :
    (V m c main_v16 : S1x512.Idx → EReal) (ix2 (0 : Fin 1) d)
      = ((m ((c : Thread nD τ).loc main_arg2)) : S1x1x512.Idx → EReal) (ix3 (0 : Fin 1) (0 : Fin 1) d) := by
  have hV : (V m c main_v16 : S1x512.Idx → EReal)
      = shapeCast S1x512 ((m ((c : Thread nD τ).loc main_arg2)) : S1x1x512.Idx → EReal) shapeCasts_S1x1x512_S1x512 := by
    show StableHlo.after hostOps0 (fun b => m (c, b)) (Proc.devRef .tc main_v16) = _
    after_results
    rfl
  rw [hV]
  refine shapeCast_apply (s := S1x1x512) (t := S1x512) _ _ _ _ ?_
  rw [Shape.rowMajor_val_two, Shape.rowMajor_val_three]
  rfl

theorem V_v17_apply (c : Dev nD) (d : Fin 512) :
    (V m c main_v17 : S1x512.Idx → EReal) (ix2 (0 : Fin 1) d) = ((m ((c : Thread nD τ).loc main_arg7)) : S512.Idx → EReal) (ix1 d) := by
  have hV : (V m c main_v17 : S1x512.Idx → EReal)
      = shapeCast S1x512 ((m ((c : Thread nD τ).loc main_arg7)) : S512.Idx → EReal) shapeCasts_S512_S1x512 := by
    show StableHlo.after hostOps0 (fun b => m (c, b)) (Proc.devRef .tc main_v17) = _
    after_results
    rfl
  rw [hV]
  exact shapeCast_a_1a_apply _ _ (0 : Fin 1) d

theorem V_v18_apply (c : Dev nD) (d : Fin 512) :
    (V m c main_v18 : S1x512.Idx → EReal) (ix2 (0 : Fin 1) d) = ((m ((c : Thread nD τ).loc main_arg8)) : S512.Idx → EReal) (ix1 d) := by
  have hV : (V m c main_v18 : S1x512.Idx → EReal)
      = shapeCast S1x512 ((m ((c : Thread nD τ).loc main_arg8)) : S512.Idx → EReal) shapeCasts_S512_S1x512 := by
    show StableHlo.after hostOps0 (fun b => m (c, b)) (Proc.devRef .tc main_v18) = _
    after_results
    rfl
  rw [hV]
  exact shapeCast_a_1a_apply _ _ (0 : Fin 1) d

theorem V_v19_apply (c : Dev nD) (e : Fin 1536) :
    (V m c main_v19 : S1x1536.Idx → EReal) (ix2 (0 : Fin 1) e) = ((m ((c : Thread nD τ).loc main_arg9)) : S1536.Idx → EReal) (ix1 e) := by
  have hV : (V m c main_v19 : S1x1536.Idx → EReal)
      = shapeCast S1x1536 ((m ((c : Thread nD τ).loc main_arg9)) : S1536.Idx → EReal) shapeCasts_S1536_S1x1536 := by
    show StableHlo.after hostOps0 (fun b => m (c, b)) (Proc.devRef .tc main_v19) = _
    after_results
    rfl
  rw [hV]
  exact shapeCast_a_1a_apply _ _ (0 : Fin 1) e

theorem V_v20_apply (c : Dev nD) (e : Fin 1536) :
    (V m c main_v20 : S1x1536.Idx → EReal) (ix2 (0 : Fin 1) e) = ((m ((c : Thread nD τ).loc main_arg10)) : S1536.Idx → EReal) (ix1 e) := by
  have hV : (V m c main_v20 : S1x1536.Idx → EReal)
      = shapeCast S1x1536 ((m ((c : Thread nD τ).loc main_arg10)) : S1536.Idx → EReal) shapeCasts_S1536_S1x1536 := by
    show StableHlo.after hostOps0 (fun b => m (c, b)) (Proc.devRef .tc main_v20) = _
    after_results
    rfl
  rw [hV]
  exact shapeCast_a_1a_apply _ _ (0 : Fin 1) e

end Cert.KernelIdeal.HostArrays

end
-- ==== Proof.KernelArray.lean ====
/-
  The output array after the region: block by block it is the row function of the arrays the region finds, and the blocks cover it.
-/
import proofs.«153052_j26560077758945_1_alg».proof.Proof.Gen.KernelIdeal.Frame
import proofs.«153052_j26560077758945_1_alg».proof.Proof.RowSpec
import proofs.«153052_j26560077758945_1_alg».proof.Proof.PayRow
import proofs.«153052_j26560077758945_1_alg».proof.Proof.BlockOut
import proofs.«153052_j26560077758945_1_alg».proof.Proof.HostArrays
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.KernelArray

open Idealize.ShloMosaic Idealize.ShloMosaic.ValueIdx Cert.KernelIdeal Cert.KernelIdeal.Gen Cert.RowSpec

open Idealize.ShloMosaic.TcCoe Idealize.ShloMosaic.Tactic
open Idealize.SL Idealize.SL.Sem
open Idealize.ShloMosaic.Pipeline (Dat Cfg Window)

open Cert.KernelIdeal.PayRow Cert.KernelIdeal.BlockOut Cert.KernelIdeal.HostArrays

variable (m : (ℓ : Loc nD τ sig) → Buf (Elt Ideal) ℓ)

/-! ## The arrays the region finds, each named once at its literal type -/
abbrev a0 (c : Dev nD) : S16384x2048.Idx → EReal := V m c main_v0
abbrev a1 (c : Dev nD) : S16384x2048.Idx → EReal := V m c main_v1
abbrev a2 (c : Dev nD) : S2048x2048.Idx → EReal := V m c main_v3
abbrev a3 (c : Dev nD) : S512x64.Idx → EReal := V m c main_v6
abbrev a4 (c : Dev nD) : S1536x64.Idx → EReal := V m c main_v9
abbrev a5 (c : Dev nD) : S2048x64.Idx → EReal := V m c main_v12
abbrev a6 (c : Dev nD) : S64x512.Idx → EReal := V m c main_v14
abbrev a7 (c : Dev nD) : S1x512.Idx → EReal := V m c main_v15
abbrev a8 (c : Dev nD) : S1x512.Idx → EReal := V m c main_v16
abbrev a9 (c : Dev nD) : S1x512.Idx → EReal := V m c main_v17
abbrev a10 (c : Dev nD) : S1x512.Idx → EReal := V m c main_v18
abbrev a11 (c : Dev nD) : S1x1536.Idx → EReal := V m c main_v19
abbrev a12 (c : Dev nD) : S1x1536.Idx → EReal := V m c main_v20

/-! ## The grid -/

theorem tlt (t : Fin cfg0.N) : t.val < 64 := by have h : cfg0.N = 64 := N_0; have := t.isLt; omega

/-- Row `r` of block `t` is row `256 t + r` of the array. -/
def rowOf (t : Fin cfg0.N) (r : Fin 256) : Fin 16384 := ⟨256 * t.val + r.val, by have := tlt t; have := r.isLt; omega⟩

/-! ## The block indices, decided over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-! ## Each window's block, read at an entry -/

theorem blk0 (c : Dev nD) (t : Fin cfg0.N) (r : Fin 256) (k : Fin 2048) :
    (iblk m c 0 t : Vec Ideal S256x2048 .f32) (ix2 r k) = a0 m c (ix2 (rowOf t r) k) := by
  unfold iblk
  rw [View.read_apply]
  show V m c main_v0 (((cfg0.win 0).blk t).view.emb (ix2 r k)) = V m c main_v0 (ix2 (rowOf t r) k)
  congr 1
  funext a
  apply Fin.ext
  obtain ⟨e0, e1⟩ := idx0 t
  match a with
  | ⟨0, _⟩ => show win0_0.index t (0 : Fin 2) * 256 + 1 * r.val = 256 * t.val + r.val; rw [e0]; omega
  | ⟨1, _⟩ => show win0_0.index t (1 : Fin 2) * 2048 + 1 * k.val = k.val; rw [e1]; omega
theorem blk1 (c : Dev nD) (t : Fin cfg0.N) (r : Fin 256) (k : Fin 2048) :
    (iblk m c 1 t : Vec Ideal S256x2048 .f32) (ix2 r k) = a1 m c (ix2 (rowOf t r) k) := by
  unfold iblk
  rw [View.read_apply]
  show V m c main_v1 (((cfg0.win 1).blk t).view.emb (ix2 r k)) = V m c main_v1 (ix2 (rowOf t r) k)
  congr 1
  funext a
  apply Fin.ext
  obtain ⟨e0, e1⟩ := idx1 t
  match a with
  | ⟨0, _⟩ => show win0_1.index t (0 : Fin 2) * 256 + 1 * r.val = 256 * t.val + r.val; rw [e0]; omega
  | ⟨1, _⟩ => show win0_1.index t (1 : Fin 2) * 2048 + 1 * k.val = k.val; rw [e1]; omega
theorem blk2 (c : Dev nD) (t : Fin cfg0.N) (p : Fin 2048) (q : Fin 2048) :
    (iblk m c 2 t : Vec Ideal S2048x2048 .bf16) (ix2 p q) = a2 m c (ix2 p q) := by
  unfold iblk
  rw [View.read_apply]
  show V m c main_v3 (((cfg0.win 2).blk t).view.emb (ix2 p q)) = V m c main_v3 (ix2 p q)
  congr 1
  funext a
  apply Fin.ext
  obtain ⟨e0, e1⟩ := idx2 t
  match a with
  | ⟨0, _⟩ => show win0_2.index t (0 : Fin 2) * 2048 + 1 * p.val = p.val; rw [e0]; omega
  | ⟨1, _⟩ => show win0_2.index t (1 : Fin 2) * 2048 + 1 * q.val = q.val; rw [e1]; omega
theorem blk3 (c : Dev nD) (t : Fin cfg0.N) (p : Fin 512) (q : Fin 64) :
    (iblk m c 3 t : Vec Ideal S512x64 .bf16) (ix2 p q) = a3 m c (ix2 p q) := by
  unfold iblk
  rw [View.read_apply]
  show V m c main_v6 (((cfg0.win 3).blk t).view.emb (ix2 p q)) = V m c main_v6 (ix2 p q)
  congr 1
  funext a
  apply Fin.ext
  obtain ⟨e0, e1⟩ := idx3 t
  match a with
  | ⟨0, _⟩ => show win0_3.index t (0 : Fin 2) * 512 + 1 * p.val = p.val; rw [e0]; omega
  | ⟨1, _⟩ => show win0_3.index t (1 : Fin 2) * 64 + 1 * q.val = q.val; rw [e1]; omega
theorem blk4 (c : Dev nD) (t : Fin cfg0.N) (p : Fin 1536) (q : Fin 64) :
    (iblk m c 4 t : Vec Ideal S1536x64 .bf16) (ix2 p q) = a4 m c (ix2 p q) := by
  unfold iblk
  rw [View.read_apply]
  show V m c main_v9 (((cfg0.win 4).blk t).view.emb (ix2 p q)) = V m c main_v9 (ix2 p q)
  congr 1
  funext a
  apply Fin.ext
  obtain ⟨e0, e1⟩ := idx4 t
  match a with
  | ⟨0, _⟩ => show win0_4.index t (0 : Fin 2) * 1536 + 1 * p.val = p.val; rw [e0]; omega
  | ⟨1, _⟩ => show win0_4.index t (1 : Fin 2) * 64 + 1 * q.val = q.val; rw [e1]; omega
theorem blk5 (c : Dev nD) (t : Fin cfg0.N) (p : Fin 2048) (q : Fin 64) :
    (iblk m c 5 t : Vec Ideal S2048x64 .bf16) (ix2 p q) = a5 m c (ix2 p q) := by
  unfold iblk
  rw [View.read_apply]
  show V m c main_v12 (((cfg0.win 5).blk t).view.emb (ix2 p q)) = V m c main_v12 (ix2 p q)
  congr 1
  funext a
  apply Fin.ext
  obtain ⟨e0, e1⟩ := idx5 t
  match a with
  | ⟨0, _⟩ => show win0_5.index t (0 : Fin 2) * 2048 + 1 * p.val = p.val; rw [e0]; omega
  | ⟨1, _⟩ => show win0_5.index t (1 : Fin 2) * 64 + 1 * q.val = q.val; rw [e1]; omega
theorem blk6 (c : Dev nD) (t : Fin cfg0.N) (p : Fin 64) (q : Fin 512) :
    (iblk m c 6 t : Vec Ideal S64x512 .bf16) (ix2 p q) = a6 m c (ix2 p q) := by
  unfold iblk
  rw [View.read_apply]
  show V m c main_v14 (((cfg0.win 6).blk t).view.emb (ix2 p q)) = V m c main_v14 (ix2 p q)
  congr 1
  funext a
  apply Fin.ext
  obtain ⟨e0, e1⟩ := idx6 t
  match a with
  | ⟨0, _⟩ => show win0_6.index t (0 : Fin 2) * 64 + 1 * p.val = p.val; rw [e0]; omega
  | ⟨1, _⟩ => show win0_6.index t (1 : Fin 2) * 512 + 1 * q.val = q.val; rw [e1]; omega
theorem blk7 (c : Dev nD) (t : Fin cfg0.N) (p : Fin 1) (q : Fin 512) :
    (iblk m c 7 t : Vec Ideal S1x512 .f32) (ix2 p q) = a7 m c (ix2 p q) := by
  unfold iblk
  rw [View.read_apply]
  show V m c main_v15 (((cfg0.win 7).blk t).view.emb (ix2 p q)) = V m c main_v15 (ix2 p q)
  congr 1
  funext a
  apply Fin.ext
  obtain ⟨e0, e1⟩ := idx7 t
  match a with
  | ⟨0, _⟩ => show win0_7.index t (0 : Fin 2) * 1 + 1 * p.val = p.val; rw [e0]; omega
  | ⟨1, _⟩ => show win0_7.index t (1 : Fin 2) * 512 + 1 * q.val = q.val; rw [e1]; omega
theorem blk8 (c : Dev nD) (t : Fin cfg0.N) (p : Fin 1) (q : Fin 512) :
    (iblk m c 8 t : Vec Ideal S1x512 .f32) (ix2 p q) = a8 m c (ix2 p q) := by
  unfold iblk
  rw [View.read_apply]
  show V m c main_v16 (((cfg0.win 8).blk t).view.emb (ix2 p q)) = V m c main_v16 (ix2 p q)
  congr 1
  funext a
  apply Fin.ext
  obtain ⟨e0, e1⟩ := idx8 t
  match a with
  | ⟨0, _⟩ => show win0_8.index t (0 : Fin 2) * 1 + 1 * p.val = p.val; rw [e0]; omega
  | ⟨1, _⟩ => show win0_8.index t (1 : Fin 2) * 512 + 1 * q.val = q.val; rw [e1]; omega
theorem blk9 (c : Dev nD) (t : Fin cfg0.N) (p : Fin 1) (q : Fin 512) :
    (iblk m c 9 t : Vec Ideal S1x512 .f32) (ix2 p q) = a9 m c (ix2 p q) := by
  unfold iblk
  rw [View.read_apply]
  show V m c main_v17 (((cfg0.win 9).blk t).view.emb (ix2 p q)) = V m c main_v17 (ix2 p q)
  congr 1
  funext a
  apply Fin.ext
  obtain ⟨e0, e1⟩ := idx9 t
  match a with
  | ⟨0, _⟩ => show win0_9.index t (0 : Fin 2) * 1 + 1 * p.val = p.val; rw [e0]; omega
  | ⟨1, _⟩ => show win0_9.index t (1 : Fin 2) * 512 + 1 * q.val = q.val; rw [e1]; omega
theorem blk10 (c : Dev nD) (t : Fin cfg0.N) (p : Fin 1) (q : Fin 512) :
    (iblk m c 10 t : Vec Ideal S1x512 .f32) (ix2 p q) = a10 m c (ix2 p q) := by
  unfold iblk
  rw [View.read_apply]
  show V m c main_v18 (((cfg0.win 10).blk t).view.emb (ix2 p q)) = V m c main_v18 (ix2 p q)
  congr 1
  funext a
  apply Fin.ext
  obtain ⟨e0, e1⟩ := idx10 t
  match a with
  | ⟨0, _⟩ => show win0_10.index t (0 : Fin 2) * 1 + 1 * p.val = p.val; rw [e0]; omega
  | ⟨1, _⟩ => show win0_10.index t (1 : Fin 2) * 512 + 1 * q.val = q.val; rw [e1]; omega
theorem blk11 (c : Dev nD) (t : Fin cfg0.N) (p : Fin 1) (q : Fin 1536) :
    (iblk m c 11 t : Vec Ideal S1x1536 .f32) (ix2 p q) = a11 m c (ix2 p q) := by
  unfold iblk
  rw [View.read_apply]
  show V m c main_v19 (((cfg0.win 11).blk t).view.emb (ix2 p q)) = V m c main_v19 (ix2 p q)
  congr 1
  funext a
  apply Fin.ext
  obtain ⟨e0, e1⟩ := idx11 t
  match a with
  | ⟨0, _⟩ => show win0_11.index t (0 : Fin 2) * 1 + 1 * p.val = p.val; rw [e0]; omega
  | ⟨1, _⟩ => show win0_11.index t (1 : Fin 2) * 1536 + 1 * q.val = q.val; rw [e1]; omega
theorem blk12 (c : Dev nD) (t : Fin cfg0.N) (p : Fin 1) (q : Fin 1536) :
    (iblk m c 12 t : Vec Ideal S1x1536 .f32) (ix2 p q) = a12 m c (ix2 p q) := by
  unfold iblk
  rw [View.read_apply]
  show V m c main_v20 (((cfg0.win 12).blk t).view.emb (ix2 p q)) = V m c main_v20 (ix2 p q)
  congr 1
  funext a
  apply Fin.ext
  obtain ⟨e0, e1⟩ := idx12 t
  match a with
  | ⟨0, _⟩ => show win0_12.index t (0 : Fin 2) * 1 + 1 * p.val = p.val; rw [e0]; omega
  | ⟨1, _⟩ => show win0_12.index t (1 : Fin 2) * 1536 + 1 * q.val = q.val; rw [e1]; omega

/-! ## The output array as one function of the region's arrays -/

/-- Entry `(R, j)` is column `j` of the row function of row `R` of the two inputs and the weights as the region holds them. -/
def K2 (c : Dev nD) : S16384x2048.Idx → EReal := fun i =>
  rowOut (fun k => a0 m c (ix2 (i 0) k)) (fun k => a1 m c (ix2 (i 0) k)) (fun d => a8 m c (ix2 (0 : Fin 1) d))
    (fun h k => a2 m c (ix2 k h)) (fun q col => a3 m c (ix2 col q)) (fun q col => a4 m c (ix2 col q))
    (fun q col => a5 m c (ix2 col q)) (fun d q => a6 m c (ix2 q d)) (fun d => a7 m c (ix2 (0 : Fin 1) d))
    (fun d => a9 m c (ix2 (0 : Fin 1) d)) (fun d => a10 m c (ix2 (0 : Fin 1) d)) (fun e => a11 m c (ix2 (0 : Fin 1) e))
    (fun e => a12 m c (ix2 (0 : Fin 1) e)) (i 1)

/-- The block function of the thirteen blocks at point `t`, at `(r, j)`, is `K2` at `(256 t + r, j)`. -/
theorem blockG_at (c : Dev nD) (t : Fin cfg0.N) (r : Fin 256) (j : Fin 2048) :
    blockG (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r j)
      = K2 m c (ix2 (rowOf t r) j) := by
  unfold blockG K2
  show rowOut (fun k => (iblk m c 0 t : Vec Ideal S256x2048 .f32) (ix2 r k)) (fun k => (iblk m c 1 t : Vec Ideal S256x2048 .f32) (ix2 r k))
      (fun d => (iblk m c 8 t : Vec Ideal S1x512 .f32) (ix2 (0 : Fin 1) d))
      (fun h k => (iblk m c 2 t : Vec Ideal S2048x2048 .bf16) (ix2 k h)) (fun q col => (iblk m c 3 t : Vec Ideal S512x64 .bf16) (ix2 col q))
      (fun q col => (iblk m c 4 t : Vec Ideal S1536x64 .bf16) (ix2 col q)) (fun q col => (iblk m c 5 t : Vec Ideal S2048x64 .bf16) (ix2 col q))
      (fun d q => (iblk m c 6 t : Vec Ideal S64x512 .bf16) (ix2 q d)) (fun d => (iblk m c 7 t : Vec Ideal S1x512 .f32) (ix2 (0 : Fin 1) d))
      (fun d => (iblk m c 9 t : Vec Ideal S1x512 .f32) (ix2 (0 : Fin 1) d)) (fun d => (iblk m c 10 t : Vec Ideal S1x512 .f32) (ix2 (0 : Fin 1) d))
      (fun e => (iblk m c 11 t : Vec Ideal S1x1536 .f32) (ix2 (0 : Fin 1) e)) (fun e => (iblk m c 12 t : Vec Ideal S1x1536 .f32) (ix2 (0 : Fin 1) e)) j
    = rowOut (fun k => a0 m c (ix2 (rowOf t r) k)) (fun k => a1 m c (ix2 (rowOf t r) k)) (fun d => a8 m c (ix2 (0 : Fin 1) d))
      (fun h k => a2 m c (ix2 k h)) (fun q col => a3 m c (ix2 col q)) (fun q col => a4 m c (ix2 col q))
      (fun q col => a5 m c (ix2 col q)) (fun d q => a6 m c (ix2 q d)) (fun d => a7 m c (ix2 (0 : Fin 1) d))
      (fun d => a9 m c (ix2 (0 : Fin 1) d)) (fun d => a10 m c (ix2 (0 : Fin 1) d)) (fun e => a11 m c (ix2 (0 : Fin 1) e))
      (fun e => a12 m c (ix2 (0 : Fin 1) e)) j
  have e0 : (fun k => (iblk m c 0 t : Vec Ideal S256x2048 .f32) (ix2 r k)) = fun k => a0 m c (ix2 (rowOf t r) k) := funext fun k => blk0 m c t r k
  have e1 : (fun k => (iblk m c 1 t : Vec Ideal S256x2048 .f32) (ix2 r k)) = fun k => a1 m c (ix2 (rowOf t r) k) := funext fun k => blk1 m c t r k
  have e2 : (fun h k => (iblk m c 2 t : Vec Ideal S2048x2048 .bf16) (ix2 k h)) = fun h k => a2 m c (ix2 k h) := funext fun h => funext fun k => blk2 m c t k h
  have e3 : (fun q col => (iblk m c 3 t : Vec Ideal S512x64 .bf16) (ix2 col q)) = fun q col => a3 m c (ix2 col q) := funext fun q => funext fun col => blk3 m c t col q
  have e4 : (fun q col => (iblk m c 4 t : Vec Ideal S1536x64 .bf16) (ix2 col q)) = fun q col => a4 m c (ix2 col q) := funext fun q => funext fun col => blk4 m c t col q
  have e5 : (fun q col => (iblk m c 5 t : Vec Ideal S2048x64 .bf16) (ix2 col q)) = fun q col => a5 m c (ix2 col q) := funext fun q => funext fun col => blk5 m c t col q
  have e6 : (fun d q => (iblk m c 6 t : Vec Ideal S64x512 .bf16) (ix2 q d)) = fun d q => a6 m c (ix2 q d) := funext fun d => funext fun q => blk6 m c t q d
  have e7 : (fun d => (iblk m c 7 t : Vec Ideal S1x512 .f32) (ix2 (0 : Fin 1) d)) = fun d => a7 m c (ix2 (0 : Fin 1) d) := funext fun d => blk7 m c t 0 d
  have e8 : (fun d => (iblk m c 8 t : Vec Ideal S1x512 .f32) (ix2 (0 : Fin 1) d)) = fun d => a8 m c (ix2 (0 : Fin 1) d) := funext fun d => blk8 m c t 0 d
  have e9 : (fun d => (iblk m c 9 t : Vec Ideal S1x512 .f32) (ix2 (0 : Fin 1) d)) = fun d => a9 m c (ix2 (0 : Fin 1) d) := funext fun d => blk9 m c t 0 d
  have e10 : (fun d => (iblk m c 10 t : Vec Ideal S1x512 .f32) (ix2 (0 : Fin 1) d)) = fun d => a10 m c (ix2 (0 : Fin 1) d) := funext fun d => blk10 m c t 0 d
  have e11 : (fun e => (iblk m c 11 t : Vec Ideal S1x1536 .f32) (ix2 (0 : Fin 1) e)) = fun e => a11 m c (ix2 (0 : Fin 1) e) := funext fun e => blk11 m c t 0 e
  have e12 : (fun e => (iblk m c 12 t : Vec Ideal S1x1536 .f32) (ix2 (0 : Fin 1) e)) = fun e => a12 m c (ix2 (0 : Fin 1) e) := funext fun e => blk12 m c t 0 e
  rw [e0, e1, e2, e3, e4, e5, e6, e7, e8, e9, e10, e11, e12]

/-! ## What each point writes back -/

/-- Entry `(r, j)` of the output's block at point `t` is entry `(256 t + r, j)` of the array. -/
theorem emb13 (t : Fin cfg0.N) (r : Fin 256) (j : Fin 2048) :
    (((cfg0.win 13).blk t).view.emb (ix2 r j) : S16384x2048.Idx) = ix2 (rowOf t r) j := by
  funext a
  apply Fin.ext
  obtain ⟨e0, e1⟩ := idx13 t
  match a with
  | ⟨0, _⟩ => show win0_13.index t (0 : Fin 2) * 256 + 1 * r.val = 256 * t.val + r.val; rw [e0]; omega
  | ⟨1, _⟩ => show win0_13.index t (1 : Fin 2) * 2048 + 1 * j.val = j.val; rw [e1]; omega

theorem flushed_pt (c : Dev nD) (t : Fin cfg0.N) (y : S256x2048.Idx) :
    (cfg0.win 13).cut (grid0.coords t) (blockG (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)) y
      = K2 m c (((cfg0.win 13).blk t).view.emb y) := by
  obtain ⟨r, j, rfl⟩ : ∃ (r : Fin 256) (j : Fin 2048), y = ix2 r j := ⟨y 0, y 1, eq_ix2 y⟩
  show blockG (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r j) = _
  rw [emb13]
  exact blockG_at m c t r j

/-- Point `t` writes back block `t` of `K2`. -/
theorem flushed_eq (c : Dev nD) (t : Fin cfg0.N) :
    (dats m 0 c).flushed 13 t = ((cfg0.win 13).blk t).view.read (Elt Ideal) (K2 m c) := by
  show (cfg0.win 13).cut (grid0.coords t) ((dats m 0 c).after 13 t) = _
  rw [after0_13]
  unfold outsAt0
  rw [out_block]
  funext y
  exact flushed_pt m c t y

/-! ## The blocks cover the array -/

/-- An index of the array is in point `t`'s block iff each coordinate is in the block's range on its axis. -/
theorem mem_blk (t : Fin cfg0.N) (i : S16384x2048.Idx) :
    i ∈ ((cfg0.win 13).blk t).view.set ↔ ∀ a : Fin 2, win0_13.index t a * S256x2048.size a ≤ (i a).val ∧ (i a).val < win0_13.index t a * S256x2048.size a + S256x2048.size a := by
  show i ∈ ((View.whole main_v21).slice (win0_13.rect t)).set ↔ _
  rw [View.set_slice_whole, Rect.mem_set_unit]
  exact Iff.rfl

/-- Every index lies in the block of the point its row belongs to. -/
theorem cover (i : S16384x2048.Idx) :
    ∃ t : Fin cfg0.N, (cfg0.win 13).flush t = true ∧ i ∈ ((cfg0.win 13).blk t).view.set := by
  have hi0 : (i 0).val < 16384 := (i 0).isLt
  have hi1 : (i 1).val < 2048 := (i 1).isLt
  have hN : cfg0.N = 64 := N_0
  obtain ⟨t, ht⟩ : ∃ t : Fin cfg0.N, t.val = (i 0).val / 256 := ⟨⟨(i 0).val / 256, by omega⟩, rfl⟩
  refine ⟨t, flush0_13 t, ?_⟩
  rw [mem_blk]
  obtain ⟨e0, e1⟩ := idx13 t
  intro a
  match a with
  | ⟨0, _⟩ =>
    show win0_13.index t (0 : Fin 2) * 256 ≤ (i 0).val ∧ (i 0).val < win0_13.index t (0 : Fin 2) * 256 + 256
    rw [e0, ht]; omega
  | ⟨1, _⟩ =>
    show win0_13.index t (1 : Fin 2) * 2048 ≤ (i 1).val ∧ (i 1).val < win0_13.index t (1 : Fin 2) * 2048 + 2048
    rw [e1]; omega

/-! ## The array after the run -/

/-- The output array after the last point is `K2`. -/
theorem final (c : Dev nD) : (dats m 0 c).arrAt 13 cfg0.N = K2 m c :=
  (dats m 0 c).arrAt_eq_of_cover 13 (K2 m c) (fun t _ => flushed_eq m c t) cover

end Cert.KernelIdeal.KernelArray

end
-- ==== Proof.KernelRun.lean ====
/-
  The kernel program's run with its result named: the output array after the region is the row function of the region's arrays (Proof/KernelArray.lean); the last host line reshapes it to the result, whose rows are the rows of the arguments.
-/
import proofs.«153052_j26560077758945_1_alg».proof.Proof.Gen.KernelIdeal.Frame
import proofs.«153052_j26560077758945_1_alg».proof.Proof.RowSpec
import proofs.«153052_j26560077758945_1_alg».proof.Proof.PayRow
import proofs.«153052_j26560077758945_1_alg».proof.Proof.BlockOut
import proofs.«153052_j26560077758945_1_alg».proof.Proof.HostArrays
import proofs.«153052_j26560077758945_1_alg».proof.Proof.KernelArray
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.KernelRun

open Idealize.ShloMosaic Idealize.ShloMosaic.ValueIdx Cert.KernelIdeal Cert.KernelIdeal.Gen Cert.RowSpec

open Idealize.ShloMosaic.TcCoe Idealize.ShloMosaic.Tactic
open Idealize.SL Idealize.SL.Sem
open Idealize.ShloMosaic.Pipeline (Dat Cfg Window)

open Cert.KernelIdeal.PayRow Cert.KernelIdeal.BlockOut Cert.KernelIdeal.HostArrays Cert.KernelIdeal.KernelArray

section Arrays

variable (m : (ℓ : Loc nD τ sig) → Buf (Elt Ideal) ℓ)

/-! ## The line after the region -/

/-- The result buffer after the last host line: the output array, reshaped. -/
theorem tail_eq (c : Dev nD) :
    Pipeline.afterTail₀ cfgs (dats m) 0 (V0 m) [hostOps1] c main_v22
      = shapeCast S4x4096x2048 (K2 m c) shapeCasts_S16384x2048_S4x4096x2048 := by
  unfold Pipeline.afterTail₀
  show StableHlo.after hostOps1 _ (Proc.devRef .tc main_v22) = _
  after_results
  have h : Pipeline.withArrays spec0 c (V0 m c) (fun w => (dats m 0 c).arrAt w cfg0.N) (Proc.devRef .tc main_v21) = K2 m c :=
    (Pipeline.withArrays_arr spec0 launch0.win.arr_inj c (V0 m c) (fun w => (dats m 0 c).arrAt w cfg0.N) 13).trans (final m c)
  exact congrArg (fun x : S16384x2048.Idx → EReal => shapeCast S4x4096x2048 x shapeCasts_S16384x2048_S4x4096x2048) h

/-! ## The reshape, read at a row -/

/-- Entry `(b, s, j)` of the reshaped array is entry `(4096 b + s, j)`. -/
theorem reshape_at (x : S16384x2048.Idx → EReal) (b : Fin 4) (s : Fin 4096) (j : Fin 2048) :
    shapeCast S4x4096x2048 x shapeCasts_S16384x2048_S4x4096x2048 (ix3 b s j)
      = x (ix2 (⟨4096 * b.val + s.val, by have := b.isLt; have := s.isLt; omega⟩ : Fin 16384) j) :=
  shapeCast_apply x _ _ _ (by
    rw [Shape.rowMajor_val_three, Shape.rowMajor_val_two]
    show (4096 * b.val + s.val) * 2048 + j.val = (b.val * 4096 + s.val) * 2048 + j.val
    omega)

/-! ## The two inputs' rows -/

theorem v0_row (c : Dev nD) (b : Fin 4) (s : Fin 4096) (R : Fin 16384) (hR : R.val = 4096 * b.val + s.val) (k : Fin 2048) :
    a0 m c (ix2 R k) = ((m ((c.tc : Thread nD τ).loc main_arg0)) : S4x4096x2048.Idx → EReal) (ix3 b s k) := by
  have hs := s.isLt
  refine (V_v0_apply m c R k).trans ?_
  exact congrArg₂ (fun (x : Fin 4) (y : Fin 4096) => ((m ((c.tc : Thread nD τ).loc main_arg0)) : S4x4096x2048.Idx → EReal) (ix3 x y k))
    (Fin.ext (by show R.val / 4096 = b.val; omega)) (Fin.ext (by show R.val % 4096 = s.val; omega))

theorem v1_row (c : Dev nD) (b : Fin 4) (s : Fin 4096) (R : Fin 16384) (hR : R.val = 4096 * b.val + s.val) (k : Fin 2048) :
    a1 m c (ix2 R k) = ((m ((c.tc : Thread nD τ).loc main_arg1)) : S4x4096x2048.Idx → EReal) (ix3 b s k) := by
  have hs := s.isLt
  refine (V_v1_apply m c R k).trans ?_
  exact congrArg₂ (fun (x : Fin 4) (y : Fin 4096) => ((m ((c.tc : Thread nD τ).loc main_arg1)) : S4x4096x2048.Idx → EReal) (ix3 x y k))
    (Fin.ext (by show R.val / 4096 = b.val; omega)) (Fin.ext (by show R.val % 4096 = s.val; omega))

/-! ## The output array's rows are the rows of the result function -/

theorem row_eq (c : Dev nD) (b : Fin 4) (s : Fin 4096) (R : Fin 16384) (hR : R.val = 4096 * b.val + s.val) (j : Fin 2048) :
    K2 m c (ix2 R j) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix3 b s j) := by
  unfold K2 G
  show rowOut (fun k => a0 m c (ix2 R k)) (fun k => a1 m c (ix2 R k)) (fun d => a8 m c (ix2 (0 : Fin 1) d))
      (fun h k => a2 m c (ix2 k h)) (fun q col => a3 m c (ix2 col q)) (fun q col => a4 m c (ix2 col q))
      (fun q col => a5 m c (ix2 col q)) (fun d q => a6 m c (ix2 q d)) (fun d => a7 m c (ix2 (0 : Fin 1) d))
      (fun d => a9 m c (ix2 (0 : Fin 1) d)) (fun d => a10 m c (ix2 (0 : Fin 1) d)) (fun e => a11 m c (ix2 (0 : Fin 1) e))
      (fun e => a12 m c (ix2 (0 : Fin 1) e)) j
    = rowOut (fun k => ((m ((c.tc : Thread nD τ).loc main_arg0)) : S4x4096x2048.Idx → EReal) (ix3 b s k)) (fun k => ((m ((c.tc : Thread nD τ).loc main_arg1)) : S4x4096x2048.Idx → EReal) (ix3 b s k))
      (fun d => ((m ((c.tc : Thread nD τ).loc main_arg2)) : S1x1x512.Idx → EReal) (ix3 (0 : Fin 1) (0 : Fin 1) d)) (fun h k => ((m ((c.tc : Thread nD τ).loc main_arg3)) : S2048x2048.Idx → EReal) (ix2 h k))
      (fun q col => ((m ((c.tc : Thread nD τ).loc main_arg4)) : S64x4096.Idx → EReal) (ix2 q (colSel col))) (fun q col => ((m ((c.tc : Thread nD τ).loc main_arg4)) : S64x4096.Idx → EReal) (ix2 q (colRes col)))
      (fun q col => ((m ((c.tc : Thread nD τ).loc main_arg4)) : S64x4096.Idx → EReal) (ix2 q (colY col))) (fun d q => ((m ((c.tc : Thread nD τ).loc main_arg5)) : S512x64.Idx → EReal) (ix2 d q))
      (fun d => ((m ((c.tc : Thread nD τ).loc main_arg6)) : S512.Idx → EReal) (ix1 d)) (fun d => ((m ((c.tc : Thread nD τ).loc main_arg7)) : S512.Idx → EReal) (ix1 d)) (fun d => ((m ((c.tc : Thread nD τ).loc main_arg8)) : S512.Idx → EReal) (ix1 d))
      (fun e => ((m ((c.tc : Thread nD τ).loc main_arg9)) : S1536.Idx → EReal) (ix1 e)) (fun e => ((m ((c.tc : Thread nD τ).loc main_arg10)) : S1536.Idx → EReal) (ix1 e)) j
  have e0 : (fun k => a0 m c (ix2 R k)) = fun k => ((m ((c.tc : Thread nD τ).loc main_arg0)) : S4x4096x2048.Idx → EReal) (ix3 b s k) := funext fun k => v0_row m c b s R hR k
  have e1 : (fun k => a1 m c (ix2 R k)) = fun k => ((m ((c.tc : Thread nD τ).loc main_arg1)) : S4x4096x2048.Idx → EReal) (ix3 b s k) := funext fun k => v1_row m c b s R hR k
  have e2 : (fun h k => a2 m c (ix2 k h)) = fun h k => ((m ((c.tc : Thread nD τ).loc main_arg3)) : S2048x2048.Idx → EReal) (ix2 h k) := funext fun h => funext fun k => V_v3_apply m c k h
  have e3 : (fun q col => a3 m c (ix2 col q)) = fun q col => ((m ((c.tc : Thread nD τ).loc main_arg4)) : S64x4096.Idx → EReal) (ix2 q (colSel col)) := funext fun q => funext fun col => V_v6_apply m c col q
  have e4 : (fun q col => a4 m c (ix2 col q)) = fun q col => ((m ((c.tc : Thread nD τ).loc main_arg4)) : S64x4096.Idx → EReal) (ix2 q (colRes col)) := funext fun q => funext fun col => V_v9_apply m c col q
  have e5 : (fun q col => a5 m c (ix2 col q)) = fun q col => ((m ((c.tc : Thread nD τ).loc main_arg4)) : S64x4096.Idx → EReal) (ix2 q (colY col)) := funext fun q => funext fun col => V_v12_apply m c col q
  have e6 : (fun d q => a6 m c (ix2 q d)) = fun d q => ((m ((c.tc : Thread nD τ).loc main_arg5)) : S512x64.Idx → EReal) (ix2 d q) := funext fun d => funext fun q => V_v14_apply m c q d
  have e7 : (fun d => a7 m c (ix2 (0 : Fin 1) d)) = fun d => ((m ((c.tc : Thread nD τ).loc main_arg6)) : S512.Idx → EReal) (ix1 d) := funext fun d => V_v15_apply m c d
  have e8 : (fun d => a8 m c (ix2 (0 : Fin 1) d)) = fun d => ((m ((c.tc : Thread nD τ).loc main_arg2)) : S1x1x512.Idx → EReal) (ix3 (0 : Fin 1) (0 : Fin 1) d) := funext fun d => V_v16_apply m c d
  have e9 : (fun d => a9 m c (ix2 (0 : Fin 1) d)) = fun d => ((m ((c.tc : Thread nD τ).loc main_arg7)) : S512.Idx → EReal) (ix1 d) := funext fun d => V_v17_apply m c d
  have e10 : (fun d => a10 m c (ix2 (0 : Fin 1) d)) = fun d => ((m ((c.tc : Thread nD τ).loc main_arg8)) : S512.Idx → EReal) (ix1 d) := funext fun d => V_v18_apply m c d
  have e11 : (fun e => a11 m c (ix2 (0 : Fin 1) e)) = fun e => ((m ((c.tc : Thread nD τ).loc main_arg9)) : S1536.Idx → EReal) (ix1 e) := funext fun e => V_v19_apply m c e
  have e12 : (fun e => a12 m c (ix2 (0 : Fin 1) e)) = fun e => ((m ((c.tc : Thread nD τ).loc main_arg10)) : S1536.Idx → EReal) (ix1 e) := funext fun e => V_v20_apply m c e
  rw [e0, e1, e2, e3, e4, e5, e6, e7, e8, e9, e10, e11, e12]

/-! ## The result buffer -/

/-- The result buffer after the run is the result function of the eleven arguments. -/
theorem result_eq (c : Dev nD) :
    Pipeline.afterTail₀ cfgs (dats m) 0 (V0 m) [hostOps1] c main_v22 = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [tail_eq]
  funext i
  obtain ⟨b, s, j, rfl⟩ : ∃ (b : Fin 4) (s : Fin 4096) (j : Fin 2048), i = ix3 b s j := ⟨i 0, i 1, i 2, eq_ix3 i⟩
  rw [reshape_at]
  exact row_eq m c b s _ rfl j

end Arrays

/-! ## The run -/

/-- Every weakly fair execution of the idealized kernel program terminates with the result array at the row function
    `G` of the eleven arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
          = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      ((h c).2 main_v22 (Pipeline.mem_restRefs_of main_v22 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KernelRun

end
-- ==== Proof.RefNorm.lean ====
/-
  The reference's two layer norms, read at an entry: entry (b, s, j) is the layer norm of the stretch of row (b, s) at column j.
-/
import proofs.«153052_j26560077758945_1_alg».proof.Proof.RefRead
import proofs.«153052_j26560077758945_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefNorm

open Idealize.ShloMosaic Idealize.ShloMosaic.ValueIdx Cert.ReferenceIdeal Cert.ReferenceIdeal.Gen Cert.ReferenceIdeal.ReadP Cert.RowSpec

/-! ## The first 512 columns -/

section Sel

variable (x0 : (⟨S4x4096x2048, .f32⟩ : BufTy).Contents (Elt Ideal)) (b : Fin 4) (s : Fin 4096)

/-- The slice at `(b, s, k)` is the argument at column `k` of the row's first stretch. -/
theorem v0_at (k : Fin 512) : val_main_v0 (F := Ideal) x0 (ix3 b s k) = x0 (ix3 b s (inSel k)) :=
  (val_main_v0_apply x0 _).trans (congrArg x0 (funext fun a => Fin.ext (by
    match a with | ⟨0, _⟩ => rfl | ⟨1, _⟩ => rfl | ⟨2, _⟩ => rfl)))

/-- The row sum: the initial `0` adds nothing. -/
theorem v5_at : val_main_v5 (F := Ideal) x0 (ix2 b s) = ∑ k : Fin 512, x0 (ix3 b s (inSel k)) := by
  refine (val_main_v5_apply x0 _).trans ?_
  show Ideal.ofBits .f32 0x00000000#32 + _ = _
  rw [Ideal.ofBits_zero_f32, zero_add]
  refine Finset.sum_congr rfl fun k _ => ?_
  exact (val_main_v0_apply x0 _).trans (congrArg x0 (funext fun a => Fin.ext (by
    match a with | ⟨0, _⟩ => rfl | ⟨1, _⟩ => rfl | ⟨2, _⟩ => rfl)))

/-- The row mean, kept with a unit last axis. -/
theorem v8_at (u : Fin 1) :
    val_main_v8 (F := Ideal) x0 (ix3 b s u)
      = mean (Ideal.ofBits .f32 0x44000000#32) (fun k => x0 (ix3 b s (inSel k))) := by
  show Ideal.div (val_main_v6 (F := Ideal) x0 (ix3 b s u)) (val_main_v7 (F := Ideal) (ix3 b s u)) = Ideal.div _ _
  refine congrArg₂ Ideal.div ?_ ?_
  · refine (val_main_v6_apply x0 _).trans ?_
    refine (congrArg (val_main_v5 (F := Ideal) x0) (?_ : _ = ix2 b s)).trans (v5_at x0 b s)
    exact funext fun a => Fin.ext (by match a with | ⟨0, _⟩ => rfl | ⟨1, _⟩ => rfl)
  · exact val_main_v7_apply _

/-- The deviation from the row mean (the stage that is squared). -/
theorem v10_at (k : Fin 512) :
    val_main_v10 (F := Ideal) x0 (ix3 b s k)
      = x0 (ix3 b s (inSel k)) - mean (Ideal.ofBits .f32 0x44000000#32) (fun k => x0 (ix3 b s (inSel k))) := by
  show val_main_v0 (F := Ideal) x0 (ix3 b s k) - val_main_v9 (F := Ideal) x0 (ix3 b s k) = _
  refine congrArg₂ (· - ·) (v0_at x0 b s k) ?_
  refine (val_main_v9_apply x0 _).trans ?_
  refine (congrArg (val_main_v8 (F := Ideal) x0) (?_ : _ = ix3 b s (0 : Fin 1))).trans (v8_at x0 b s 0)
  exact funext fun a => Fin.ext (by match a with | ⟨0, _⟩ => rfl | ⟨1, _⟩ => rfl | ⟨2, _⟩ => rfl)

/-- The deviation from the row mean (the stage that is scaled). -/
theorem v17_at (k : Fin 512) :
    val_main_v17 (F := Ideal) x0 (ix3 b s k)
      = x0 (ix3 b s (inSel k)) - mean (Ideal.ofBits .f32 0x44000000#32) (fun k => x0 (ix3 b s (inSel k))) := by
  show val_main_v0 (F := Ideal) x0 (ix3 b s k) - val_main_v16 (F := Ideal) x0 (ix3 b s k) = _
  refine congrArg₂ (· - ·) (v0_at x0 b s k) ?_
  refine (val_main_v16_apply x0 _).trans ?_
  refine (congrArg (val_main_v8 (F := Ideal) x0) (?_ : _ = ix3 b s (0 : Fin 1))).trans (v8_at x0 b s 0)
  exact funext fun a => Fin.ext (by match a with | ⟨0, _⟩ => rfl | ⟨1, _⟩ => rfl | ⟨2, _⟩ => rfl)

/-- The sum of the squared deviations. -/
theorem v12_at :
    val_main_v12 (F := Ideal) x0 (ix2 b s)
      = ∑ k : Fin 512,
          (x0 (ix3 b s (inSel k)) - mean (Ideal.ofBits .f32 0x44000000#32) (fun k => x0 (ix3 b s (inSel k))))
            * (x0 (ix3 b s (inSel k)) - mean (Ideal.ofBits .f32 0x44000000#32) (fun k => x0 (ix3 b s (inSel k)))) := by
  refine (val_main_v12_apply x0 _).trans ?_
  show Ideal.ofBits .f32 0x00000000#32 + _ = _
  rw [Ideal.ofBits_zero_f32, zero_add]
  refine Finset.sum_congr rfl fun k _ => ?_
  have e : idx_main_v12 (ix2 b s) k = ix3 b s k :=
    funext fun a => Fin.ext (by match a with | ⟨0, _⟩ => rfl | ⟨1, _⟩ => rfl | ⟨2, _⟩ => rfl)
  refine (congrArg (val_main_v11 (F := Ideal) x0) e).trans ?_
  show val_main_v10 (F := Ideal) x0 (ix3 b s k) * val_main_v10 (F := Ideal) x0 (ix3 b s k) = _
  exact congrArg₂ (· * ·) (v10_at x0 b s k) (v10_at x0 b s k)

/-- The variance, kept with a unit last axis. -/
theorem v15_at (u : Fin 1) :
    val_main_v15 (F := Ideal) x0 (ix3 b s u)
      = mean (Ideal.ofBits .f32 0x44000000#32) (fun k =>
          (x0 (ix3 b s (inSel k)) - mean (Ideal.ofBits .f32 0x44000000#32) (fun k => x0 (ix3 b s (inSel k))))
            * (x0 (ix3 b s (inSel k)) - mean (Ideal.ofBits .f32 0x44000000#32) (fun k => x0 (ix3 b s (inSel k))))) := by
  show Ideal.div (val_main_v13 (F := Ideal) x0 (ix3 b s u)) (val_main_v14 (F := Ideal) (ix3 b s u)) = Ideal.div _ _
  refine congrArg₂ Ideal.div ?_ ?_
  · refine (val_main_v13_apply x0 _).trans ?_
    refine (congrArg (val_main_v12 (F := Ideal) x0) (?_ : _ = ix2 b s)).trans (v12_at x0 b s)
    exact funext fun a => Fin.ext (by match a with | ⟨0, _⟩ => rfl | ⟨1, _⟩ => rfl)
  · exact val_main_v14_apply _

/-- The reciprocal square root of the variance plus ε, broadcast back along the row. -/
theorem v21_at (k : Fin 512) :
    val_main_v21 (F := Ideal) x0 (ix3 b s k)
      = Ideal.rsqrt (mean (Ideal.ofBits .f32 0x44000000#32) (fun k =>
          (x0 (ix3 b s (inSel k)) - mean (Ideal.ofBits .f32 0x44000000#32) (fun k => x0 (ix3 b s (inSel k))))
            * (x0 (ix3 b s (inSel k)) - mean (Ideal.ofBits .f32 0x44000000#32) (fun k => x0 (ix3 b s (inSel k)))))
          + Ideal.ofBits .f32 0x3727C5AC#32) := by
  refine (val_main_v21_apply x0 _).trans ?_
  refine (congrArg (val_main_v20 (F := Ideal) x0) (?_ : _ = ix3 b s (0 : Fin 1))).trans ?_
  · exact funext fun a => Fin.ext (by match a with | ⟨0, _⟩ => rfl | ⟨1, _⟩ => rfl | ⟨2, _⟩ => rfl)
  · show Ideal.rsqrt (val_main_v15 (F := Ideal) x0 (ix3 b s (0 : Fin 1)) + val_main_v18 (F := Ideal) (ix3 b s (0 : Fin 1))) = _
    exact congrArg₂ (fun p q => Ideal.rsqrt (p + q)) (v15_at x0 b s 0) (val_main_v18_apply _)

end Sel

/-- The layer norm of the first 512 columns. The host's sum starts from the constant `0`, which adds nothing. -/
theorem v28_apply (x0 : (⟨S4x4096x2048, .f32⟩ : BufTy).Contents (Elt Ideal)) (x7 x8 : (⟨S512, .f32⟩ : BufTy).Contents (Elt Ideal)) (b : Fin 4) (s : Fin 4096) (d : Fin 512) :
    val_main_v28 (F := Ideal) x0 x7 x8 (ix3 b s d)
      = lnorm (Ideal.ofBits .f32 0x44000000#32) (fun d => x0 (ix3 b s (inSel d))) (fun d => x7 (ix1 d)) (fun d => x8 (ix1 d)) d := by
  unfold lnorm
  show val_main_v17 (F := Ideal) x0 (ix3 b s d) * val_main_v21 (F := Ideal) x0 (ix3 b s d)
      * val_main_v24 (F := Ideal) x7 (ix3 b s d) + val_main_v27 (F := Ideal) x8 (ix3 b s d) = _
  refine congrArg₂ (· + ·) (congrArg₂ (· * ·) (congrArg₂ (· * ·) (v17_at x0 b s d) (v21_at x0 b s d)) ?_) ?_
  · refine (val_main_v24_apply x7 _).trans ((val_main_v23_apply x7 _).trans (congrArg x7 ?_))
    exact funext fun a => Fin.ext (by match a with | ⟨0, _⟩ => rfl)
  · refine (val_main_v27_apply x8 _).trans ((val_main_v26_apply x8 _).trans (congrArg x8 ?_))
    exact funext fun a => Fin.ext (by match a with | ⟨0, _⟩ => rfl)

/-! ## The last 1536 columns -/

section Res

variable (x0 : (⟨S4x4096x2048, .f32⟩ : BufTy).Contents (Elt Ideal)) (b : Fin 4) (s : Fin 4096)

/-- The slice at `(b, s, k)` is the argument at column `k` of the row's second stretch, 512 further on. -/
theorem v1_at (k : Fin 1536) : val_main_v1 (F := Ideal) x0 (ix3 b s k) = x0 (ix3 b s (inRes k)) :=
  (val_main_v1_apply x0 _).trans (congrArg x0 (funext fun a => Fin.ext (by
    match a with | ⟨0, _⟩ => rfl | ⟨1, _⟩ => rfl | ⟨2, _⟩ => rfl)))

/-- The row sum: the initial `0` adds nothing. -/
theorem v29_at : val_main_v29 (F := Ideal) x0 (ix2 b s) = ∑ k : Fin 1536, x0 (ix3 b s (inRes k)) := by
  refine (val_main_v29_apply x0 _).trans ?_
  show Ideal.ofBits .f32 0x00000000#32 + _ = _
  rw [Ideal.ofBits_zero_f32, zero_add]
  refine Finset.sum_congr rfl fun k _ => ?_
  exact (val_main_v1_apply x0 _).trans (congrArg x0 (funext fun a => Fin.ext (by
    match a with | ⟨0, _⟩ => rfl | ⟨1, _⟩ => rfl | ⟨2, _⟩ => rfl)))

/-- The row mean, kept with a unit last axis. -/
theorem v32_at (u : Fin 1) :
    val_main_v32 (F := Ideal) x0 (ix3 b s u)
      = mean (Ideal.ofBits .f32 0x44C00000#32) (fun k => x0 (ix3 b s (inRes k))) := by
  show Ideal.div (val_main_v30 (F := Ideal) x0 (ix3 b s u)) (val_main_v31 (F := Ideal) (ix3 b s u)) = Ideal.div _ _
  refine congrArg₂ Ideal.div ?_ ?_
  · refine (val_main_v30_apply x0 _).trans ?_
    refine (congrArg (val_main_v29 (F := Ideal) x0) (?_ : _ = ix2 b s)).trans (v29_at x0 b s)
    exact funext fun a => Fin.ext (by match a with | ⟨0, _⟩ => rfl | ⟨1, _⟩ => rfl)
  · exact val_main_v31_apply _

/-- The deviation from the row mean (the stage that is squared). -/
theorem v34_at (k : Fin 1536) :
    val_main_v34 (F := Ideal) x0 (ix3 b s k)
      = x0 (ix3 b s (inRes k)) - mean (Ideal.ofBits .f32 0x44C00000#32) (fun k => x0 (ix3 b s (inRes k))) := by
  show val_main_v1 (F := Ideal) x0 (ix3 b s k) - val_main_v33 (F := Ideal) x0 (ix3 b s k) = _
  refine congrArg₂ (· - ·) (v1_at x0 b s k) ?_
  refine (val_main_v33_apply x0 _).trans ?_
  refine (congrArg (val_main_v32 (F := Ideal) x0) (?_ : _ = ix3 b s (0 : Fin 1))).trans (v32_at x0 b s 0)
  exact funext fun a => Fin.ext (by match a with | ⟨0, _⟩ => rfl | ⟨1, _⟩ => rfl | ⟨2, _⟩ => rfl)

/-- The deviation from the row mean (the stage that is scaled). -/
theorem v41_at (k : Fin 1536) :
    val_main_v41 (F := Ideal) x0 (ix3 b s k)
      = x0 (ix3 b s (inRes k)) - mean (Ideal.ofBits .f32 0x44C00000#32) (fun k => x0 (ix3 b s (inRes k))) := by
  show val_main_v1 (F := Ideal) x0 (ix3 b s k) - val_main_v40 (F := Ideal) x0 (ix3 b s k) = _
  refine congrArg₂ (· - ·) (v1_at x0 b s k) ?_
  refine (val_main_v40_apply x0 _).trans ?_
  refine (congrArg (val_main_v32 (F := Ideal) x0) (?_ : _ = ix3 b s (0 : Fin 1))).trans (v32_at x0 b s 0)
  exact funext fun a => Fin.ext (by match a with | ⟨0, _⟩ => rfl | ⟨1, _⟩ => rfl | ⟨2, _⟩ => rfl)

/-- The sum of the squared deviations. -/
theorem v36_at :
    val_main_v36 (F := Ideal) x0 (ix2 b s)
      = ∑ k : Fin 1536,
          (x0 (ix3 b s (inRes k)) - mean (Ideal.ofBits .f32 0x44C00000#32) (fun k => x0 (ix3 b s (inRes k))))
            * (x0 (ix3 b s (inRes k)) - mean (Ideal.ofBits .f32 0x44C00000#32) (fun k => x0 (ix3 b s (inRes k)))) := by
  refine (val_main_v36_apply x0 _).trans ?_
  show Ideal.ofBits .f32 0x00000000#32 + _ = _
  rw [Ideal.ofBits_zero_f32, zero_add]
  refine Finset.sum_congr rfl fun k _ => ?_
  have e : idx_main_v36 (ix2 b s) k = ix3 b s k :=
    funext fun a => Fin.ext (by match a with | ⟨0, _⟩ => rfl | ⟨1, _⟩ => rfl | ⟨2, _⟩ => rfl)
  refine (congrArg (val_main_v35 (F := Ideal) x0) e).trans ?_
  show val_main_v34 (F := Ideal) x0 (ix3 b s k) * val_main_v34 (F := Ideal) x0 (ix3 b s k) = _
  exact congrArg₂ (· * ·) (v34_at x0 b s k) (v34_at x0 b s k)

/-- The variance, kept with a unit last axis. -/
theorem v39_at (u : Fin 1) :
    val_main_v39 (F := Ideal) x0 (ix3 b s u)
      = mean (Ideal.ofBits .f32 0x44C00000#32) (fun k =>
          (x0 (ix3 b s (inRes k)) - mean (Ideal.ofBits .f32 0x44C00000#32) (fun k => x0 (ix3 b s (inRes k))))
            * (x0 (ix3 b s (inRes k)) - mean (Ideal.ofBits .f32 0x44C00000#32) (fun k => x0 (ix3 b s (inRes k))))) := by
  show Ideal.div (val_main_v37 (F := Ideal) x0 (ix3 b s u)) (val_main_v38 (F := Ideal) (ix3 b s u)) = Ideal.div _ _
  refine congrArg₂ Ideal.div ?_ ?_
  · refine (val_main_v37_apply x0 _).trans ?_
    refine (congrArg (val_main_v36 (F := Ideal) x0) (?_ : _ = ix2 b s)).trans (v36_at x0 b s)
    exact funext fun a => Fin.ext (by match a with | ⟨0, _⟩ => rfl | ⟨1, _⟩ => rfl)
  · exact val_main_v38_apply _

/-- The reciprocal square root of the variance plus ε, broadcast back along the row. -/
theorem v45_at (k : Fin 1536) :
    val_main_v45 (F := Ideal) x0 (ix3 b s k)
      = Ideal.rsqrt (mean (Ideal.ofBits .f32 0x44C00000#32) (fun k =>
          (x0 (ix3 b s (inRes k)) - mean (Ideal.ofBits .f32 0x44C00000#32) (fun k => x0 (ix3 b s (inRes k))))
            * (x0 (ix3 b s (inRes k)) - mean (Ideal.ofBits .f32 0x44C00000#32) (fun k => x0 (ix3 b s (inRes k)))))
          + Ideal.ofBits .f32 0x3727C5AC#32) := by
  refine (val_main_v45_apply x0 _).trans ?_
  refine (congrArg (val_main_v44 (F := Ideal) x0) (?_ : _ = ix3 b s (0 : Fin 1))).trans ?_
  · exact funext fun a => Fin.ext (by match a with | ⟨0, _⟩ => rfl | ⟨1, _⟩ => rfl | ⟨2, _⟩ => rfl)
  · show Ideal.rsqrt (val_main_v39 (F := Ideal) x0 (ix3 b s (0 : Fin 1)) + val_main_v42 (F := Ideal) (ix3 b s (0 : Fin 1))) = _
    exact congrArg₂ (fun p q => Ideal.rsqrt (p + q)) (v39_at x0 b s 0) (val_main_v42_apply _)

end Res

/-- The layer norm of the last 1536 columns. -/
theorem v52_apply (x0 : (⟨S4x4096x2048, .f32⟩ : BufTy).Contents (Elt Ideal)) (x9 x10 : (⟨S1536, .f32⟩ : BufTy).Contents (Elt Ideal)) (b : Fin 4) (s : Fin 4096) (e : Fin 1536) :
    val_main_v52 (F := Ideal) x0 x9 x10 (ix3 b s e)
      = lnorm (Ideal.ofBits .f32 0x44C00000#32) (fun e => x0 (ix3 b s (inRes e))) (fun e => x9 (ix1 e)) (fun e => x10 (ix1 e)) e := by
  unfold lnorm
  show val_main_v41 (F := Ideal) x0 (ix3 b s e) * val_main_v45 (F := Ideal) x0 (ix3 b s e)
      * val_main_v48 (F := Ideal) x9 (ix3 b s e) + val_main_v51 (F := Ideal) x10 (ix3 b s e) = _
  refine congrArg₂ (· + ·) (congrArg₂ (· * ·) (congrArg₂ (· * ·) (v41_at x0 b s e) (v45_at x0 b s e)) ?_) ?_
  · refine (val_main_v48_apply x9 _).trans ((val_main_v47_apply x9 _).trans (congrArg x9 ?_))
    exact funext fun a => Fin.ext (by match a with | ⟨0, _⟩ => rfl)
  · refine (val_main_v51_apply x10 _).trans ((val_main_v50_apply x10 _).trans (congrArg x10 ?_))
    exact funext fun a => Fin.ext (by match a with | ⟨0, _⟩ => rfl)

end Cert.ReferenceIdeal.RefNorm

end
-- ==== Proof.RefLow.lean ====
/-
  The reference's low-rank projection, read at an entry: the one contraction over the 4096 columns of the concatenated row is the sum of its three stretches.
-/
import proofs.«153052_j26560077758945_1_alg».proof.Proof.RefRead
import proofs.«153052_j26560077758945_1_alg».proof.Proof.RowSpec
import proofs.«153052_j26560077758945_1_alg».proof.Proof.RefNorm
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLow

open Idealize.ShloMosaic Idealize.ShloMosaic.ValueIdx Cert.ReferenceIdeal Cert.ReferenceIdeal.Gen Cert.ReferenceIdeal.ReadP Cert.RowSpec

open Cert.ReferenceIdeal.RefNorm

/-- The right operand of the contraction is read at (rank index, column). -/
theorem ridx_v55 (b : Fin 4) (s : Fin 4096) (q : Fin 64) (k : Fin 4096) :
    ridx_main_v55 (ix3 b s q) k = ix2 q k :=
  funext fun a => by
    match a with
    | ⟨0, _⟩ => rfl
    | ⟨1, _⟩ => rfl

/-- A column below 2048 of the 4096-long row is that column of the two joined layer norms. -/
theorem v54_left (x0 x1 : (⟨S4x4096x2048, .f32⟩ : BufTy).Contents (Elt Ideal)) (x7 x8 : (⟨S512, .f32⟩ : BufTy).Contents (Elt Ideal)) (x9 x10 : (⟨S1536, .f32⟩ : BufTy).Contents (Elt Ideal))
    (j : S4x4096x4096.Idx) (b : Fin 4) (s : Fin 4096) (c : Fin 2048)
    (h0 : (j 0).val = b.val) (h1 : (j 1).val = s.val) (h2 : (j 2).val = c.val) :
    val_main_v54 (F := Ideal) x0 x1 x7 x8 x9 x10 j = val_main_v53 (F := Ideal) x0 x7 x8 x9 x10 (ix3 b s c) := by
  unfold val_main_v54
  refine concatenate_pair_apply_left (s₁ := S4x4096x2048) (s₂ := S4x4096x2048) 2 _ _ _ j rfl (ix3 b s c) fun a => ?_
  match a with
  | ⟨0, _⟩ => exact h0.symm
  | ⟨1, _⟩ => exact h1.symm
  | ⟨2, _⟩ => exact h2.symm

/-- A column from 2048 on of the 4096-long row is the second input's column, 2048 less. -/
theorem v54_right (x0 x1 : (⟨S4x4096x2048, .f32⟩ : BufTy).Contents (Elt Ideal)) (x7 x8 : (⟨S512, .f32⟩ : BufTy).Contents (Elt Ideal)) (x9 x10 : (⟨S1536, .f32⟩ : BufTy).Contents (Elt Ideal))
    (j : S4x4096x4096.Idx) (b : Fin 4) (s : Fin 4096) (c : Fin 2048)
    (h0 : (j 0).val = b.val) (h1 : (j 1).val = s.val) (h2 : (j 2).val = 2048 + c.val) :
    val_main_v54 (F := Ideal) x0 x1 x7 x8 x9 x10 j = x1 (ix3 b s c) := by
  unfold val_main_v54
  refine concatenate_pair_apply_right (s₁ := S4x4096x2048) (s₂ := S4x4096x2048) 2 _ _ _ j rfl rfl (ix3 b s c) (fun a ha => ?_) ?_
  · match a with
    | ⟨0, _⟩ => exact h0.symm
    | ⟨1, _⟩ => exact h1.symm
    | ⟨2, _⟩ => exact absurd rfl ha
  · show c.val + 2048 = (j 2).val
    omega

/-- A column below 512 of the joined layer norms is the first layer norm's column. -/
theorem v53_left (x0 : (⟨S4x4096x2048, .f32⟩ : BufTy).Contents (Elt Ideal)) (x7 x8 : (⟨S512, .f32⟩ : BufTy).Contents (Elt Ideal)) (x9 x10 : (⟨S1536, .f32⟩ : BufTy).Contents (Elt Ideal))
    (j : S4x4096x2048.Idx) (b : Fin 4) (s : Fin 4096) (c : Fin 512)
    (h0 : (j 0).val = b.val) (h1 : (j 1).val = s.val) (h2 : (j 2).val = c.val) :
    val_main_v53 (F := Ideal) x0 x7 x8 x9 x10 j = val_main_v28 (F := Ideal) x0 x7 x8 (ix3 b s c) := by
  unfold val_main_v53
  refine concatenate_pair_apply_left (s₁ := S4x4096x512) (s₂ := S4x4096x1536) 2 _ _ _ j rfl (ix3 b s c) fun a => ?_
  match a with
  | ⟨0, _⟩ => exact h0.symm
  | ⟨1, _⟩ => exact h1.symm
  | ⟨2, _⟩ => exact h2.symm

/-- A column from 512 on of the joined layer norms is the second layer norm's column, 512 less. -/
theorem v53_right (x0 : (⟨S4x4096x2048, .f32⟩ : BufTy).Contents (Elt Ideal)) (x7 x8 : (⟨S512, .f32⟩ : BufTy).Contents (Elt Ideal)) (x9 x10 : (⟨S1536, .f32⟩ : BufTy).Contents (Elt Ideal))
    (j : S4x4096x2048.Idx) (b : Fin 4) (s : Fin 4096) (c : Fin 1536)
    (h0 : (j 0).val = b.val) (h1 : (j 1).val = s.val) (h2 : (j 2).val = 512 + c.val) :
    val_main_v53 (F := Ideal) x0 x7 x8 x9 x10 j = val_main_v52 (F := Ideal) x0 x9 x10 (ix3 b s c) := by
  unfold val_main_v53
  refine concatenate_pair_apply_right (s₁ := S4x4096x512) (s₂ := S4x4096x1536) 2 _ _ _ j rfl rfl (ix3 b s c) (fun a ha => ?_) ?_
  · match a with
    | ⟨0, _⟩ => exact h0.symm
    | ⟨1, _⟩ => exact h1.symm
    | ⟨2, _⟩ => exact absurd rfl ha
  · show c.val + 512 = (j 2).val
    omega

/-- The three stretches of the concatenated row, read at a column of each. -/
theorem v54_colSel (x0 x1 : (⟨S4x4096x2048, .f32⟩ : BufTy).Contents (Elt Ideal)) (x7 x8 : (⟨S512, .f32⟩ : BufTy).Contents (Elt Ideal)) (x9 x10 : (⟨S1536, .f32⟩ : BufTy).Contents (Elt Ideal))
    (b : Fin 4) (s : Fin 4096) (q : Fin 64) (c : Fin 512) :
    val_main_v54 (F := Ideal) x0 x1 x7 x8 x9 x10 (lidx_main_v55 (ix3 b s q) (colSel c))
      = lnorm (Ideal.ofBits .f32 0x44000000#32) (fun d => x0 (ix3 b s (inSel d))) (fun d => x7 (ix1 d)) (fun d => x8 (ix1 d)) c := by
  rw [v54_left x0 x1 x7 x8 x9 x10 _ b s (inSel c) rfl rfl rfl, v53_left x0 x7 x8 x9 x10 _ b s c rfl rfl rfl, v28_apply]

theorem v54_colRes (x0 x1 : (⟨S4x4096x2048, .f32⟩ : BufTy).Contents (Elt Ideal)) (x7 x8 : (⟨S512, .f32⟩ : BufTy).Contents (Elt Ideal)) (x9 x10 : (⟨S1536, .f32⟩ : BufTy).Contents (Elt Ideal))
    (b : Fin 4) (s : Fin 4096) (q : Fin 64) (c : Fin 1536) :
    val_main_v54 (F := Ideal) x0 x1 x7 x8 x9 x10 (lidx_main_v55 (ix3 b s q) (colRes c))
      = lnorm (Ideal.ofBits .f32 0x44C00000#32) (fun e => x0 (ix3 b s (inRes e))) (fun e => x9 (ix1 e)) (fun e => x10 (ix1 e)) c := by
  rw [v54_left x0 x1 x7 x8 x9 x10 _ b s (inRes c) rfl rfl rfl, v53_right x0 x7 x8 x9 x10 _ b s c rfl rfl rfl, v52_apply]

theorem v54_colY (x0 x1 : (⟨S4x4096x2048, .f32⟩ : BufTy).Contents (Elt Ideal)) (x7 x8 : (⟨S512, .f32⟩ : BufTy).Contents (Elt Ideal)) (x9 x10 : (⟨S1536, .f32⟩ : BufTy).Contents (Elt Ideal))
    (b : Fin 4) (s : Fin 4096) (q : Fin 64) (c : Fin 2048) :
    val_main_v54 (F := Ideal) x0 x1 x7 x8 x9 x10 (lidx_main_v55 (ix3 b s q) (colY c)) = x1 (ix3 b s c) :=
  v54_right x0 x1 x7 x8 x9 x10 _ b s c rfl rfl rfl

/-- Entry `(b, s, q)` of the projection is `low q` of row `(b, s)`: the concatenated row is the two layer norms and the
    second input's row, and `dd`'s columns are read in the same three stretches. -/
theorem v55_low (x0 x1 : (⟨S4x4096x2048, .f32⟩ : BufTy).Contents (Elt Ideal)) (x4 : (⟨S64x4096, .f32⟩ : BufTy).Contents (Elt Ideal)) (x7 x8 : (⟨S512, .f32⟩ : BufTy).Contents (Elt Ideal)) (x9 x10 : (⟨S1536, .f32⟩ : BufTy).Contents (Elt Ideal))
    (b : Fin 4) (s : Fin 4096) (q : Fin 64) :
    val_main_v55 (F := Ideal) x0 x1 x4 x7 x8 x9 x10 (ix3 b s q)
      = low (fun k => x0 (ix3 b s k)) (fun k => x1 (ix3 b s k)) (fun q c => x4 (ix2 q (colSel c)))
          (fun q c => x4 (ix2 q (colRes c))) (fun q c => x4 (ix2 q (colY c))) (fun d => x7 (ix1 d)) (fun d => x8 (ix1 d))
          (fun e => x9 (ix1 e)) (fun e => x10 (ix1 e)) q := by
  rw [val_main_v55_apply]
  refine (sum_three_stretches fun k => val_main_v54 (F := Ideal) x0 x1 x7 x8 x9 x10 (lidx_main_v55 (ix3 b s q) k)
    * x4 (ridx_main_v55 (ix3 b s q) k)).trans ?_
  unfold low
  refine congrArg₂ (· + ·) (congrArg₂ (· + ·) (Finset.sum_congr rfl fun c _ => ?_) (Finset.sum_congr rfl fun c _ => ?_))
    (Finset.sum_congr rfl fun c _ => ?_)
  · rw [ridx_v55, v54_colSel]
  · rw [ridx_v55, v54_colRes]
  · rw [ridx_v55, v54_colY]

end Cert.ReferenceIdeal.RefLow

end
-- ==== Proof.RefValue.lean ====
/-
  The reference's result is the row function of its arguments, entry by entry.
-/
import proofs.«153052_j26560077758945_1_alg».proof.Proof.RefRead
import proofs.«153052_j26560077758945_1_alg».proof.Proof.RowSpec
import proofs.«153052_j26560077758945_1_alg».proof.Proof.RefLow
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP Cert.RowSpec

open Cert.ReferenceIdeal.RefLow

/-! ## The projection `y · Wᵀ` and its two slices -/

/-- Entry `(b, s, h)` of the product is the contraction of row `(b, s)` of the second input with row `h` of `W`. -/
theorem v2_wy (x1 : (⟨S4x4096x2048, .f32⟩ : BufTy).Contents (Elt Ideal)) (x3 : (⟨S2048x2048, .f32⟩ : BufTy).Contents (Elt Ideal)) (b : Fin 4) (s : Fin 4096) (h : Fin 2048) :
    val_main_v2 (F := Ideal) x1 x3 (ix3 b s h) = wy (fun k => x1 (ix3 b s k)) (fun h k => x3 (ix2 h k)) h := by
  rw [val_main_v2_apply]
  unfold wy
  refine Finset.sum_congr rfl fun k _ => ?_
  have e1 : lidx_main_v2 (ix3 b s h) k = ix3 b s k := funext fun a => by
    match a with
    | ⟨0, _⟩ => rfl
    | ⟨1, _⟩ => rfl
    | ⟨2, _⟩ => rfl
  have e2 : ridx_main_v2 (ix3 b s h) k = ix2 h k := funext fun a => by
    match a with
    | ⟨0, _⟩ => rfl
    | ⟨1, _⟩ => rfl
  rw [e1, e2]

/-- The product's first 512 columns. -/
theorem v3_wy (x1 : (⟨S4x4096x2048, .f32⟩ : BufTy).Contents (Elt Ideal)) (x3 : (⟨S2048x2048, .f32⟩ : BufTy).Contents (Elt Ideal)) (b : Fin 4) (s : Fin 4096) (d : Fin 512) :
    val_main_v3 (F := Ideal) x1 x3 (ix3 b s d) = wy (fun k => x1 (ix3 b s k)) (fun h k => x3 (ix2 h k)) (inSel d) := by
  rw [val_main_v3_apply]
  have e : idx_main_v3 (ix3 b s d) = ix3 b s (inSel d) := funext fun a => by
    match a with
    | ⟨0, _⟩ => rfl
    | ⟨1, _⟩ => rfl
    | ⟨2, _⟩ => rfl
  rw [e, v2_wy]

/-- The product's last 1536 columns. -/
theorem v4_wy (x1 : (⟨S4x4096x2048, .f32⟩ : BufTy).Contents (Elt Ideal)) (x3 : (⟨S2048x2048, .f32⟩ : BufTy).Contents (Elt Ideal)) (b : Fin 4) (s : Fin 4096) (e : Fin 1536) :
    val_main_v4 (F := Ideal) x1 x3 (ix3 b s e) = wy (fun k => x1 (ix3 b s k)) (fun h k => x3 (ix2 h k)) (inRes e) := by
  rw [val_main_v4_apply]
  have h : idx_main_v4 (ix3 b s e) = ix3 b s (inRes e) := funext fun a => by
    match a with
    | ⟨0, _⟩ => rfl
    | ⟨1, _⟩ => rfl
    | ⟨2, _⟩ => rfl
  rw [h, v2_wy]

/-- The residual part at `(b, s, e)`. -/
theorem res_apply (x0 x1 : (⟨S4x4096x2048, .f32⟩ : BufTy).Contents (Elt Ideal)) (x3 : (⟨S2048x2048, .f32⟩ : BufTy).Contents (Elt Ideal)) (b : Fin 4) (s : Fin 4096) (e : Fin 1536) :
    val_main_v73 (F := Ideal) x0 x1 x3 (ix3 b s e)
      = resOut (fun k => x0 (ix3 b s k)) (fun k => x1 (ix3 b s k)) (fun h k => x3 (ix2 h k)) e := by
  rw [val_main_v73_apply, val_main_v1_apply, v4_wy]
  have h : idx_main_v1 (ix3 b s e) = ix3 b s (inRes e) := funext fun a => by
    match a with
    | ⟨0, _⟩ => rfl
    | ⟨1, _⟩ => rfl
    | ⟨2, _⟩ => rfl
  rw [h]
  rfl

/-! ## The softplus as the reference spells it -/

/-- The comparison of an extended real with itself for inequality, in its unordered spelling, is the bit `0`. -/
theorem cmp_une_self (a : EReal) : Ideal.cmp .une a a = 0#1 := by
  simp [Ideal.cmp]

/-- The reference's spelling of softplus at one extended real, the zero written as its 32-bit word: the select's
    condition is the bit `0` and `x - 0 = x`. -/
theorem softplus_spelt (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      = softplus x := by
  rw [cmp_une_self, select_zero, Ideal.ofBits_zero_f32, sub_zero]
  rfl

/-- The softplus of the pre-activation, at any index. -/
theorem v60_softplus (x0 x1 : (⟨S4x4096x2048, .f32⟩ : BufTy).Contents (Elt Ideal)) (x4 : (⟨S64x4096, .f32⟩ : BufTy).Contents (Elt Ideal)) (x5 : (⟨S512x64, .f32⟩ : BufTy).Contents (Elt Ideal)) (x6 x7 x8 : (⟨S512, .f32⟩ : BufTy).Contents (Elt Ideal)) (x9 x10 : (⟨S1536, .f32⟩ : BufTy).Contents (Elt Ideal)) (i : S4x4096x512.Idx) :
    val_main_v60 (F := Ideal) x0 x1 x4 x5 x6 x7 x8 x9 x10 i
      = softplus (val_main_v59 (F := Ideal) x0 x1 x4 x5 x6 x7 x8 x9 x10 i) := by
  rw [val_main_v60_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply]
  exact softplus_spelt _

/-- The softplus of the decay parameter, at any index. -/
theorem v61_softplus (x2 : (⟨S1x1x512, .f32⟩ : BufTy).Contents (Elt Ideal)) (i : S1x1x512.Idx) :
    val_main_v61 (F := Ideal) x2 i = softplus (x2 i) := by
  rw [val_main_v61_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply]
  exact softplus_spelt _

/-- The negated softplus of the decay parameter, at any index. -/
theorem v62_neg_softplus (x2 : (⟨S1x1x512, .f32⟩ : BufTy).Contents (Elt Ideal)) (i : S1x1x512.Idx) :
    val_main_v62 (F := Ideal) x2 i = -(softplus (x2 i)) := by
  rw [val_main_v62_apply, v61_softplus]
  rfl

/-! ## The pre-activation and the selective part -/

/-- The pre-activation at `(b, s, d)`: the low-rank projection of row `(b, s)` against row `d` of `du`, plus the bias. -/
theorem v59_pre (x0 x1 : (⟨S4x4096x2048, .f32⟩ : BufTy).Contents (Elt Ideal)) (x4 : (⟨S64x4096, .f32⟩ : BufTy).Contents (Elt Ideal)) (x5 : (⟨S512x64, .f32⟩ : BufTy).Contents (Elt Ideal)) (x6 x7 x8 : (⟨S512, .f32⟩ : BufTy).Contents (Elt Ideal)) (x9 x10 : (⟨S1536, .f32⟩ : BufTy).Contents (Elt Ideal)) (b : Fin 4) (s : Fin 4096) (d : Fin 512) :
    val_main_v59 (F := Ideal) x0 x1 x4 x5 x6 x7 x8 x9 x10 (ix3 b s d)
      = (∑ q : Fin 64, low (fun k => x0 (ix3 b s k)) (fun k => x1 (ix3 b s k)) (fun q c => x4 (ix2 q (colSel c)))
          (fun q c => x4 (ix2 q (colRes c))) (fun q c => x4 (ix2 q (colY c))) (fun d => x7 (ix1 d)) (fun d => x8 (ix1 d))
          (fun e => x9 (ix1 e)) (fun e => x10 (ix1 e)) q * x5 (ix2 d q)) + x6 (ix1 d) := by
  rw [val_main_v59_apply, val_main_v56_apply, val_main_v58_apply, val_main_v57_apply]
  refine congrArg₂ (· + ·) (Finset.sum_congr rfl fun q _ => ?_) (congrArg x6 (funext fun a => by
    match a with
    | ⟨0, _⟩ => rfl))
  have e1 : lidx_main_v56 (ix3 b s d) q = ix3 b s q := funext fun a => by
    match a with
    | ⟨0, _⟩ => rfl
    | ⟨1, _⟩ => rfl
    | ⟨2, _⟩ => rfl
  have e2 : ridx_main_v56 (ix3 b s d) q = ix2 d q := funext fun a => by
    match a with
    | ⟨0, _⟩ => rfl
    | ⟨1, _⟩ => rfl
  rw [e1, e2, v55_low]

/-- The selective part at `(b, s, d)`. -/
theorem sel_apply (x0 x1 : (⟨S4x4096x2048, .f32⟩ : BufTy).Contents (Elt Ideal)) (x2 : (⟨S1x1x512, .f32⟩ : BufTy).Contents (Elt Ideal)) (x3 : (⟨S2048x2048, .f32⟩ : BufTy).Contents (Elt Ideal)) (x4 : (⟨S64x4096, .f32⟩ : BufTy).Contents (Elt Ideal)) (x5 : (⟨S512x64, .f32⟩ : BufTy).Contents (Elt Ideal)) (x6 x7 x8 : (⟨S512, .f32⟩ : BufTy).Contents (Elt Ideal)) (x9 x10 : (⟨S1536, .f32⟩ : BufTy).Contents (Elt Ideal)) (b : Fin 4) (s : Fin 4096) (d : Fin 512) :
    val_main_v72 (F := Ideal) x0 x1 x2 x3 x4 x5 x6 x7 x8 x9 x10 (ix3 b s d)
      = selOut (fun k => x0 (ix3 b s k)) (fun k => x1 (ix3 b s k)) (fun d => x2 (ix3 0 0 d))
          (fun h k => x3 (ix2 h k)) (fun q c => x4 (ix2 q (colSel c))) (fun q c => x4 (ix2 q (colRes c)))
          (fun q c => x4 (ix2 q (colY c))) (fun d q => x5 (ix2 d q)) (fun d => x6 (ix1 d)) (fun d => x7 (ix1 d))
          (fun d => x8 (ix1 d)) (fun e => x9 (ix1 e)) (fun e => x10 (ix1 e)) d := by
  have e63 : idx_main_v63 (ix3 b s d) = ix3 0 0 d := funext fun a => by
    match a with
    | ⟨0, _⟩ => rfl
    | ⟨1, _⟩ => rfl
    | ⟨2, _⟩ => rfl
  have e68 : idx_main_v68 (ix3 b s d) = ix3 0 0 d := funext fun a => by
    match a with
    | ⟨0, _⟩ => rfl
    | ⟨1, _⟩ => rfl
    | ⟨2, _⟩ => rfl
  have e0 : idx_main_v0 (ix3 b s d) = ix3 b s (inSel d) := funext fun a => by
    match a with
    | ⟨0, _⟩ => rfl
    | ⟨1, _⟩ => rfl
    | ⟨2, _⟩ => rfl
  rw [val_main_v72_apply, val_main_v70_apply, val_main_v71_apply, val_main_v69_apply, val_main_v67_apply,
    val_main_v65_apply, val_main_v64_apply, val_main_v63_apply, val_main_v68_apply, val_main_v66_apply,
    val_main_cst_9_apply, val_main_v0_apply, v3_wy, v60_softplus, v59_pre, e63, e68, e0, v62_neg_softplus]
  rfl

/-- The reference's last stage — the concatenation of the selective and the residual parts — is `G`. -/
theorem ref_eq (x0 x1 : (⟨S4x4096x2048, .f32⟩ : BufTy).Contents (Elt Ideal)) (x2 : (⟨S1x1x512, .f32⟩ : BufTy).Contents (Elt Ideal)) (x3 : (⟨S2048x2048, .f32⟩ : BufTy).Contents (Elt Ideal)) (x4 : (⟨S64x4096, .f32⟩ : BufTy).Contents (Elt Ideal))
    (x5 : (⟨S512x64, .f32⟩ : BufTy).Contents (Elt Ideal)) (x6 x7 x8 : (⟨S512, .f32⟩ : BufTy).Contents (Elt Ideal)) (x9 x10 : (⟨S1536, .f32⟩ : BufTy).Contents (Elt Ideal)) :
    val_main_v74 (F := Ideal) x0 x1 x2 x3 x4 x5 x6 x7 x8 x9 x10 = G x0 x1 x2 x3 x4 x5 x6 x7 x8 x9 x10 := by
  funext i
  obtain ⟨b, s, j, rfl⟩ : ∃ (b : Fin 4) (s : Fin 4096) (j : Fin 2048), i = ix3 b s j := ⟨i 0, i 1, i 2, eq_ix3 i⟩
  by_cases hj : j.val < 512
  · refine Eq.trans ?_ (rowOut_inSel (fun k => x0 (ix3 b s k)) (fun k => x1 (ix3 b s k)) (fun d => x2 (ix3 0 0 d))
          (fun h k => x3 (ix2 h k)) (fun q c => x4 (ix2 q (colSel c))) (fun q c => x4 (ix2 q (colRes c)))
          (fun q c => x4 (ix2 q (colY c))) (fun d q => x5 (ix2 d q)) (fun d => x6 (ix1 d)) (fun d => x7 (ix1 d))
          (fun d => x8 (ix1 d)) (fun e => x9 (ix1 e)) (fun e => x10 (ix1 e)) ⟨j.val, hj⟩).symm
    unfold val_main_v74
    refine (concatenate_pair_apply_left 2 _ _ concatenates_S4x4096x512_S4x4096x1536_S4x4096x2048_d2 (ix3 b s j) rfl
      (ix3 b s ⟨j.val, hj⟩) (fun a => by
        match a with
        | ⟨0, _⟩ => rfl
        | ⟨1, _⟩ => rfl
        | ⟨2, _⟩ => rfl)).trans ?_
    exact sel_apply x0 x1 x2 x3 x4 x5 x6 x7 x8 x9 x10 b s ⟨j.val, hj⟩
  · have hlt : j.val - 512 < 1536 := by have := j.isLt; omega
    have hjE : j = inRes ⟨j.val - 512, hlt⟩ := Fin.ext (by show j.val = 512 + (j.val - 512); omega)
    have hG : G x0 x1 x2 x3 x4 x5 x6 x7 x8 x9 x10 (ix3 b s j)
        = resOut (fun k => x0 (ix3 b s k)) (fun k => x1 (ix3 b s k)) (fun h k => x3 (ix2 h k)) ⟨j.val - 512, hlt⟩ :=
      (congrArg (rowOut (fun k => x0 (ix3 b s k)) (fun k => x1 (ix3 b s k)) (fun d => x2 (ix3 0 0 d))
          (fun h k => x3 (ix2 h k)) (fun q c => x4 (ix2 q (colSel c))) (fun q c => x4 (ix2 q (colRes c)))
          (fun q c => x4 (ix2 q (colY c))) (fun d q => x5 (ix2 d q)) (fun d => x6 (ix1 d)) (fun d => x7 (ix1 d))
          (fun d => x8 (ix1 d)) (fun e => x9 (ix1 e)) (fun e => x10 (ix1 e))) hjE).trans
        (rowOut_inRes (fun k => x0 (ix3 b s k)) (fun k => x1 (ix3 b s k)) (fun d => x2 (ix3 0 0 d))
          (fun h k => x3 (ix2 h k)) (fun q c => x4 (ix2 q (colSel c))) (fun q c => x4 (ix2 q (colRes c)))
          (fun q c => x4 (ix2 q (colY c))) (fun d q => x5 (ix2 d q)) (fun d => x6 (ix1 d)) (fun d => x7 (ix1 d))
          (fun d => x8 (ix1 d)) (fun e => x9 (ix1 e)) (fun e => x10 (ix1 e)) ⟨j.val - 512, hlt⟩)
    refine Eq.trans ?_ hG.symm
    unfold val_main_v74
    refine (concatenate_pair_apply_right 2 _ _ concatenates_S4x4096x512_S4x4096x1536_S4x4096x2048_d2 (ix3 b s j) rfl rfl
      (ix3 b s ⟨j.val - 512, hlt⟩) (fun a ha => by
        match a with
        | ⟨0, _⟩ => rfl
        | ⟨1, _⟩ => rfl
        | ⟨2, _⟩ => exact absurd rfl ha)
      (by show (j.val - 512) + 512 = j.val; omega)).trans ?_
    exact res_apply x0 x1 x3 b s ⟨j.val - 512, hlt⟩

end Cert.ReferenceIdeal.RefValue

end
-- ==== Proof.lean ====
/-
  The kernel computes, one block of 256 rows at a time, what the reference computes on whole arrays: a row of the result
  depends on the same row of the two inputs and on the weights. Both are shown to be ONE function `Cert.RowSpec.G` of the
  eleven arguments over the extended reals (Proof/RowSpec.lean):

  * the reference, stage by stage through its read-at-an-index lemmas (Proof/RefNorm.lean, Proof/RefLow.lean,
    Proof/RefValue.lean); its one contraction over the 4096 columns of [layer norms | second input] is the sum of the
    three stretches the kernel contracts separately (addition commutes and associates on the extended reals, so no
    finiteness is needed);
  * the kernel, from what its body stores into the output block (Proof/PaySlices.lean, Proof/PayNorm.lean,
    Proof/PayLow.lean, Proof/PayGate.lean, Proof/PayRow.lean, Proof/BlockOut.lean), the arrays the host lines before the
    call prepare (Proof/HostArrays.lean: reshapes, transposes, column cuts; a change of float format is the identity), and
    the cover of the 16384 rows by the 64 blocks (Proof/KernelRun.lean).

  The three frames are the generated ones (the reference's is its run with the result dropped); the idealization rewrote
  nothing, so `preserves` is `True`.
-/
import proofs.«153052_j26560077758945_1_alg».proof.Defs
import proofs.«153052_j26560077758945_1_alg».proof.Proof.Gen.Kernel
import proofs.«153052_j26560077758945_1_alg».proof.Proof.Gen.Kernel.Frame
import proofs.«153052_j26560077758945_1_alg».proof.Proof.Gen.KernelIdeal
import proofs.«153052_j26560077758945_1_alg».proof.Proof.Gen.KernelIdeal.Frame
import proofs.«153052_j26560077758945_1_alg».proof.Proof.Gen.ReferenceIdeal
import proofs.«153052_j26560077758945_1_alg».proof.Proof.RefRunP
import proofs.«153052_j26560077758945_1_alg».proof.Proof.RefRead
import proofs.«153052_j26560077758945_1_alg».proof.Proof.Gen.Pre_finite_inputs
import proofs.«153052_j26560077758945_1_alg».proof.Proof.RowSpec
import proofs.«153052_j26560077758945_1_alg».proof.Proof.KernelRun
import proofs.«153052_j26560077758945_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result at `G` of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RowSpec.G
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
    Cert.KernelIdeal.KernelRun.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v74_eq, Cert.ReferenceIdeal.RefValue.ref_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
